-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x512x768 : Shape := ⟨3, ![64, 512, 768]⟩
abbrev S64x512 : Shape := ⟨2, ![64, 512]⟩
abbrev S_ : Shape := ⟨0, ![]⟩

class Facts : Prop where
  bcast_S_S64x512x768 : S_.BroadcastsInDim S64x512x768 (![] : Fin 0 → Fin S64x512x768.rank)
  reducesTo_S64x512x768_S_d0_1_2 : S64x512x768.ReducesTo [0, 1, 2] S_
  h_S_ : 0 < S_.numel

variable [Facts]

def fn {F : FTy → Type} [FloatOps F] (main_arg0 : FVec F S64x512x768 .f32) (main_arg1 : IVec S64x512 32) : IVec S_ 1 :=
  let main_v0 : FVec F S64x512x768 .f32 := Host.absf main_arg0
  let main_cst : FVec F S_ .f32 := constant S_ .f32 0x7F800000#32
  let main_v1 : FVec F S64x512x768 .f32 := broadcastInDim S64x512x768 ![] bcast_S_S64x512x768 main_cst
  let main_v2 : IVec S64x512x768 1 := cmpf .olt main_v0 main_v1
  let main_c : IVec S_ 1 := constantI S_ 1 1#1
  let main_v3 : IVec S_ 1 := (fun x v => Host.reduce IntOp.andi x v reducesTo_S64x512x768_S_d0_1_2 h_S_) main_v2 main_c
  main_v3
-- ==== Kernel.lean ====
abbrev S64x512x768 : Shape := ⟨3, ![64, 512, 768]⟩
abbrev S64x512 : Shape := ⟨2, ![64, 512]⟩
abbrev S_ : Shape := ⟨0, ![]⟩
abbrev S64x1x512 : Shape := ⟨3, ![64, 1, 512]⟩
abbrev S1x512x768 : Shape := ⟨3, ![1, 512, 768]⟩
abbrev S1x1x512 : Shape := ⟨3, ![1, 1, 512]⟩
abbrev S512 : Shape := ⟨1, ![512]⟩
abbrev S512x512 : Shape := ⟨2, ![512, 512]⟩
abbrev S1x512 : Shape := ⟨2, ![1, 512]⟩
abbrev S512x768 : Shape := ⟨2, ![512, 768]⟩

abbrev nBuf : Space → Nat
  | .hbm => 18
  | .vmem => 6
  | .smem => 0
  | _ => 0

abbrev bufTy : (tb : Table) → Fin (tcTables nBuf tb) → BufTy
  | .hbm, ⟨0, _⟩ => ⟨S64x512x768, .f32⟩
  | .hbm, ⟨1, _⟩ => ⟨S64x512, .i32⟩
  | .hbm, ⟨2, _⟩ => ⟨S_, .i32⟩
  | .hbm, ⟨3, _⟩ => ⟨S64x512, .i32⟩
  | .hbm, ⟨4, _⟩ => ⟨S64x512, .i1⟩
  | .hbm, ⟨5, _⟩ => ⟨S64x512, .i32⟩
  | .hbm, ⟨6, _⟩ => ⟨S_, .i32⟩
  | .hbm, ⟨7, _⟩ => ⟨S_, .i32⟩
  | .hbm, ⟨8, _⟩ => ⟨S64x512, .i32⟩
  | .hbm, ⟨9, _⟩ => ⟨S_, .i32⟩
  | .hbm, ⟨10, _⟩ => ⟨S64x512, .i32⟩
  | .hbm, ⟨11, _⟩ => ⟨S64x512, .i32⟩
  | .hbm, ⟨12, _⟩ => ⟨S_, .i32⟩
  | .hbm, ⟨13, _⟩ => ⟨S_, .i32⟩
  | .hbm, ⟨14, _⟩ => ⟨S64x512, .i32⟩
  | .hbm, ⟨15, _⟩ => ⟨S64x512, .i32⟩
  | .hbm, ⟨16, _⟩ => ⟨S64x1x512, .i32⟩
  | .hbm, ⟨17, _⟩ => ⟨S64x512x768, .f32⟩
  | .local _ .vmem, ⟨0, _⟩ => ⟨S1x512x768, .f32⟩
  | .local _ .vmem, ⟨1, _⟩ => ⟨S1x512x768, .f32⟩
  | .local _ .vmem, ⟨2, _⟩ => ⟨S1x1x512, .i32⟩
  | .local _ .vmem, ⟨3, _⟩ => ⟨S1x1x512, .i32⟩
  | .local _ .vmem, ⟨4, _⟩ => ⟨S1x512x768, .f32⟩
  | .local _ .vmem, ⟨5, _⟩ => ⟨S1x512x768, .f32⟩
  | _, _ => ⟨S64x512x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_call0_c : Ref sig .tc := ⟨.hbm, 6, rfl⟩
abbrev main_call0_call0_v0 : Ref sig .tc := ⟨.hbm, 7, rfl⟩
abbrev main_v3 : Ref sig .tc := ⟨.hbm, 8, rfl⟩
abbrev main_c_0 : Ref sig .tc := ⟨.hbm, 9, rfl⟩
abbrev main_v4 : Ref sig .tc := ⟨.hbm, 10, rfl⟩
abbrev main_v5 : Ref sig .tc := ⟨.hbm, 11, rfl⟩
abbrev main_c_1 : Ref sig .tc := ⟨.hbm, 12, rfl⟩
abbrev main_call1_v0 : Ref sig .tc := ⟨.hbm, 13, rfl⟩
abbrev main_call1_v1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S_S64x512 : S_.BroadcastsInDim S64x512 (![] : Fin 0 → Fin S64x512.rank)
  natLt_1_32 : 1 < 32
  bcast_S_S_ : S_.BroadcastsInDim S_ (![] : Fin 0 → Fin S_.rank)
  reduceWindows_S64x512_S64x512_w1s1p0_0_w512s1p511_0 : S64x512.ReduceWindows (![1, 512] : Fin 2 → Nat) ![1, 1] ![0, 511] ![0, 0] S64x512
  h_S_ : 0 < S_.numel
  bcast_S64x512_S64x1x512_0_2 : S64x512.BroadcastsInDim S64x1x512 (![0, 2] : Fin 2 → Fin S64x1x512.rank)
  inb_S1x1x512_S1x1x512_0_0_0 : ∀ a, (![0, 0, 0] : Fin 3 → Nat) a + S1x1x512.size a ≤ S1x1x512.size a
  h_S1x1x512 : 0 < S1x1x512.numel
  shapeCasts_S1x1x512_S512 : S1x1x512.ShapeCasts S512
  iota_S512x512_d0_w32 : S512x512.Iotas .tc 32 [0]
  shapeCasts_S512_S1x512 : S512.ShapeCasts S1x512
  shapeCasts_S1x512_S1x512 : S1x512.ShapeCasts S1x512
  broadcasts_S1x512_S512x512 : S1x512.Broadcasts S512x512
  bitsLt_bf16_f32 : FTy.bits .bf16 < FTy.bits .f32
  inb_S1x512x768_S1x512x768_0_0_0 : ∀ a, (![0, 0, 0] : Fin 3 → Nat) a + S1x512x768.size a ≤ S1x512x768.size a
  h_S1x512x768 : 0 < S1x512x768.numel
  shapeCasts_S1x512x768_S512x768 : S1x512x768.ShapeCasts S512x768
  shapeCasts_S512x768_S1x512x768 : S512x768.ShapeCasts S1x512x768
  dot_S512x512_S512x768_S512x768_1_0_0_1_n_n_wf : DotDims.WF S512x512 S512x768 S512x768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x768.size a ≤ S64x512x768.size a
  hwx0_0 : ∀ i : grid0.Coords, EltTy.bits .f32 = 32 ∨ (Rect.block (s := S64x512x768) S1x512x768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x512.size a ≤ S64x1x512.size a
  hwx0_1 : ∀ i : grid0.Coords, EltTy.bits .i32 = 32 ∨ (Rect.block (s := S64x1x512) S1x1x512.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x768.size a ≤ S64x512x768.size a
  hwx0_2 : ∀ i : grid0.Coords, EltTy.bits .f32 = 32 ∨ (Rect.block (s := S64x512x768) S1x512x768.size (cc0_transform_2 i) (hinb0_2 i)).WholeWords (EltTy.packing .f32)

variable [Facts₀]

def dot_S512x512_S512x768_S512x768_1_0_0_1_n_n : DotDims S512x512 S512x768 S512x768 where
  lhsContracting := [1]
  rhsContracting := [0]
  lhsNonContracting := [0]
  rhsNonContracting := [1]
  lhsBatch := []
  rhsBatch := []
  wf := dot_S512x512_S512x768_S512x768_1_0_0_1_n_n_wf

abbrev win0_0 : Pipeline.Window sig grid0 :=
  Pipeline.Window.ofSpec (Memref.whole main_arg0) S1x512x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S1x1x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1x512x768.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S64x512x768 : Shape := ⟨3, ![64, 512, 768]⟩
abbrev S64x512 : Shape := ⟨2, ![64, 512]⟩
abbrev S_ : Shape := ⟨0, ![]⟩
abbrev S64 : Shape := ⟨1, ![64]⟩
abbrev S64x1 : Shape := ⟨2, ![64, 1]⟩
abbrev S64x513x768 : Shape := ⟨3, ![64, 513, 768]⟩
abbrev S64x512x1 : Shape := ⟨3, ![64, 512, 1]⟩
abbrev S64x512x2 : Shape := ⟨3, ![64, 512, 2]⟩

abbrev nBuf : Space → Nat
  | .hbm => 40
  | .vmem => 0
  | .smem => 0
  | _ => 0

abbrev bufTy : (tb : Table) → Fin (tcTables nBuf tb) → BufTy
  | .hbm, ⟨0, _⟩ => ⟨S64x512x768, .f32⟩
  | .hbm, ⟨1, _⟩ => ⟨S64x512, .i32⟩
  | .hbm, ⟨2, _⟩ => ⟨S_, .i32⟩
  | .hbm, ⟨3, _⟩ => ⟨S64x512, .i32⟩
  | .hbm, ⟨4, _⟩ => ⟨S64x512, .i1⟩
  | .hbm, ⟨5, _⟩ => ⟨S64x512, .i32⟩
  | .hbm, ⟨6, _⟩ => ⟨S_, .i32⟩
  | .hbm, ⟨7, _⟩ => ⟨S_, .i32⟩
  | .hbm, ⟨8, _⟩ => ⟨S64x512, .i32⟩
  | .hbm, ⟨9, _⟩ => ⟨S_, .i32⟩
  | .hbm, ⟨10, _⟩ => ⟨S64x512, .i32⟩
  | .hbm, ⟨11, _⟩ => ⟨S64x512, .i32⟩
  | .hbm, ⟨12, _⟩ => ⟨S_, .i32⟩
  | .hbm, ⟨13, _⟩ => ⟨S_, .i32⟩
  | .hbm, ⟨14, _⟩ => ⟨S64x512, .i32⟩
  | .hbm, ⟨15, _⟩ => ⟨S64x512, .i32⟩
  | .hbm, ⟨16, _⟩ => ⟨S64, .i32⟩
  | .hbm, ⟨17, _⟩ => ⟨S64x1, .i32⟩
  | .hbm, ⟨18, _⟩ => ⟨S_, .f32⟩
  | .hbm, ⟨19, _⟩ => ⟨S64x513x768, .f32⟩
  | .hbm, ⟨20, _⟩ => ⟨S_, .i32⟩
  | .hbm, ⟨21, _⟩ => ⟨S64x1, .i32⟩
  | .hbm, ⟨22, _⟩ => ⟨S64x1, .i1⟩
  | .hbm, ⟨23, _⟩ => ⟨S_, .i32⟩
  | .hbm, ⟨24, _⟩ => ⟨S64x1, .i32⟩
  | .hbm, ⟨25, _⟩ => ⟨S64x1, .i32⟩
  | .hbm, ⟨26, _⟩ => ⟨S64x1, .i32⟩
  | .hbm, ⟨27, _⟩ => ⟨S_, .i32⟩
  | .hbm, ⟨28, _⟩ => ⟨S64x512, .i32⟩
  | .hbm, ⟨29, _⟩ => ⟨S64x512, .i1⟩
  | .hbm, ⟨30, _⟩ => ⟨S_, .i32⟩
  | .hbm, ⟨31, _⟩ => ⟨S64x512, .i32⟩
  | .hbm, ⟨32, _⟩ => ⟨S64x512, .i32⟩
  | .hbm, ⟨33, _⟩ => ⟨S64x512, .i32⟩
  | .hbm, ⟨34, _⟩ => ⟨S64x512, .i32⟩
  | .hbm, ⟨35, _⟩ => ⟨S64x512x1, .i32⟩
  | .hbm, ⟨36, _⟩ => ⟨S64x512x1, .i32⟩
  | .hbm, ⟨37, _⟩ => ⟨S64x512x2, .i32⟩
  | .hbm, ⟨38, _⟩ => ⟨S64x513x768, .f32⟩
  | .hbm, ⟨39, _⟩ => ⟨S64x512x768, .f32⟩
  | _, _ => ⟨S64x512x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_call0_c : Ref sig .tc := ⟨.hbm, 6, rfl⟩
abbrev main_call0_call0_v0 : Ref sig .tc := ⟨.hbm, 7, rfl⟩
abbrev main_v3 : Ref sig .tc := ⟨.hbm, 8, rfl⟩
abbrev main_c_0 : Ref sig .tc := ⟨.hbm, 9, rfl⟩
abbrev main_v4 : Ref sig .tc := ⟨.hbm, 10, rfl⟩
abbrev main_v5 : Ref sig .tc := ⟨.hbm, 11, rfl⟩
abbrev main_c_1 : Ref sig .tc := ⟨.hbm, 12, rfl⟩
abbrev main_call1_v0 : Ref sig .tc := ⟨.hbm, 13, rfl⟩
abbrev main_call1_v1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst : Ref sig .tc := ⟨.hbm, 18, rfl⟩
abbrev main_v9 : Ref sig .tc := ⟨.hbm, 19, rfl⟩
abbrev main_c_2 : Ref sig .tc := ⟨.hbm, 20, rfl⟩
abbrev main_v10 : Ref sig .tc := ⟨.hbm, 21, rfl⟩
abbrev main_v11 : Ref sig .tc := ⟨.hbm, 22, rfl⟩
abbrev main_c_3 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_c_4 : Ref sig .tc := ⟨.hbm, 27, rfl⟩
abbrev main_v15 : Ref sig .tc := ⟨.hbm, 28, rfl⟩
abbrev main_v16 : Ref sig .tc := ⟨.hbm, 29, rfl⟩
abbrev main_c_5 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]

class Facts₀ : Prop where
  bcast_S_S64x512 : S_.BroadcastsInDim S64x512 (![] : Fin 0 → Fin S64x512.rank)
  natLt_1_32 : 1 < 32
  bcast_S_S_ : S_.BroadcastsInDim S_ (![] : Fin 0 → Fin S_.rank)
  reduceWindows_S64x512_S64x512_w1s1p0_0_w512s1p511_0 : S64x512.ReduceWindows (![1, 512] : Fin 2 → Nat) ![1, 1] ![0, 511] ![0, 0] S64x512
  h_S_ : 0 < S_.numel
  bcast_S64_S64x1_0 : S64.BroadcastsInDim S64x1 (![0] : Fin 1 → Fin S64x1.rank)
  bcast_S_S64x513x768 : S_.BroadcastsInDim S64x513x768 (![] : Fin 0 → Fin S64x513x768.rank)
  bcast_S_S64x1 : S_.BroadcastsInDim S64x1 (![] : Fin 0 → Fin S64x1.rank)
  bcast_S64x1_S64x512_0_1 : S64x1.BroadcastsInDim S64x512 (![0, 1] : Fin 2 → Fin S64x512.rank)
  bcast_S64x512_S64x512x1_0_1 : S64x512.BroadcastsInDim S64x512x1 (![0, 1] : Fin 2 → Fin S64x512x1.rank)
  concatenates_S64x512x1_S64x512x1_S64x512x2_d2 : Shape.Concatenates [S64x512x1, S64x512x1] S64x512x2 2
  slices_S64x513x768_S64x512x768_0_0_0 : S64x513x768.Slices ![0, 0, 0] S64x512x768
  scatter_S64x513x768_S64x512x2_S64x512x768_2_01_01_2_wf : ScatterDims.WF S64x513x768 S64x512x2 S64x512x768 [2] [0, 1] [0, 1] 2

variable [Facts₀]

def scatter_S64x513x768_S64x512x2_S64x512x768_2_01_01_2 : ScatterDims S64x513x768 S64x512x2 S64x512x768 where
  updateWindowDims := [2]
  insertedWindowDims := [0, 1]
  scatterDimsToOperandDims := [0, 1]
  indexVectorDim := 2
  wf := scatter_S64x513x768_S64x512x2_S64x512x768_2_01_01_2_wf

class Facts : Prop extends Facts₀ where

variable [Facts]
-- ==== Proof.LibDot.lean ====
/-
  Matrix products with ONE contracted axis and no batch axis, read at an entry at the ideal values, for any dimension
  numbers record whose axis lists are the stated ones (a printed record satisfies each hypothesis by `rfl`).

  With the accumulator the zero constant, the product at entry (a, b) is the sum over the contracted coordinate `c` of
  the left operand's entry times the right operand's entry; which coordinate of each operand `c` runs over is what the
  three forms below differ in: rows by columns (`_10`), the left operand transposed against a right operand contracted
  on its last axis (`_01`), and both operands contracted on their first axis (`_00`).
  Also: a non-contracting axis of either operand reads the output index, and the bf16 zero pattern is the real zero.
-/
import Idealize.ShloMosaic.Lib.ValueIdx
import Idealize.ShloMosaic.PureOps.Ideal.Laws

noncomputable section

open scoped BigOperators

namespace Cert.LibDot

open Idealize.ShloMosaic Idealize.ShloMosaic.ValueIdx

/-- The bf16 pattern of all zero bits is the number zero. -/
theorem ofBits_zero_bf16 : Ideal.ofBits .bf16 0x0000#16 = 0 := by simp [Ideal.ofBits, Ideal.ieee]

section Axes
variable {sl sr so : Shape} (d : DotDims sl sr so)

/-- With no batch axis and one non-contracting axis on the left, that axis of the left operand reads the output's
    first coordinate. -/
theorem lhsIdx_val_non {nl : Fin sl.rank} (hb : d.lhsBatch = []) (hn : d.lhsNonContracting = [nl]) (j : so.Idx)
    (k : d.contr.Idx) (h0 : 0 < so.rank) : (d.lhsIdx j k nl).val = (j ⟨0, h0⟩).val := by
  have hnb : nl ∉ d.lhsBatch := by rw [hb]; exact List.not_mem_nil
  have hmem : nl ∈ d.lhsNonContracting := by rw [hn]; exact List.mem_singleton.mpr rfl
  unfold DotDims.lhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hn])

/-- With no batch axis and one non-contracting axis on each side, the right operand's non-contracting axis reads the
    output's second coordinate. -/
theorem rhsIdx_val_non {nl : Fin sl.rank} {nr : Fin sr.rank} (hlb : d.lhsBatch = []) (hrb : d.rhsBatch = [])
    (hln : d.lhsNonContracting = [nl]) (hn : d.rhsNonContracting = [nr]) (j : so.Idx)
    (k : d.contr.Idx) (h1 : 1 < so.rank) : (d.rhsIdx j k nr).val = (j ⟨1, h1⟩).val := by
  have hnb : nr ∉ d.rhsBatch := by rw [hrb]; exact List.not_mem_nil
  have hmem : nr ∈ d.rhsNonContracting := by rw [hn]; exact List.mem_singleton.mpr rfl
  unfold DotDims.rhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hlb, hln, hn])

end Axes

/-- Rows by columns: an `M × K` by a `K × N` operand, the left contracted on its last axis and the right on its
    first. -/
theorem matmul_10_zero_apply {M K N : Nat} {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (A : FVec Ideal ⟨2, ![M, K]⟩ φ₁) (B : FVec Ideal ⟨2, ![K, N]⟩ φ₂)
    (a : Fin M) (b : Fin N) :
    matmul (F := Ideal) d prec A B (constant ⟨2, ![M, N]⟩ .f32 0x00000000#32) (ix2 a b)
      = ∑ c : Fin K, A (ix2 a c) * B (ix2 c b) := by
  have hr : d.contr.rank = 1 := by rw [d.rank_contr, hlc]; rfl
  have hs : d.contr.size ⟨0, by omega⟩ = K := by
    rw [d.size_contr 0 (by rw [hlc]; exact Nat.one_pos)]; simp [hlc]
  show FloatOps.matmul _ prec A B _ (ix2 a b) = _
  rw [Ideal.matmul_constant_zero_apply, ← Equiv.sum_comp (contrEquiv1 d K hr hs).symm]
  refine Finset.sum_congr rfl fun c _ => ?_
  have c2 := contrEquiv1_symm_val d K hr hs c
  have l0 := lhsIdx_val_non d hlb hln (ix2 a b) ((contrEquiv1 d K hr hs).symm c) Nat.zero_lt_two
  have l1 := (d.lhsIdx_val_of_single hlc (ix2 a b) ((contrEquiv1 d K hr hs).symm c)).trans c2
  have r0 := (d.rhsIdx_val_of_single hrc (ix2 a b) ((contrEquiv1 d K hr hs).symm c)).trans c2
  have r1 := rhsIdx_val_non d hlb hrb hln hrn (ix2 a b) ((contrEquiv1 d K hr hs).symm c) Nat.one_lt_two
  have l2 : d.lhsIdx (ix2 a b) ((contrEquiv1 d K hr hs).symm c) = ix2 a c := by
    funext ax; apply Fin.ext
    match ax with
    | ⟨0, _⟩ => exact l0
    | ⟨1, _⟩ => exact l1
  have r2 : d.rhsIdx (ix2 a b) ((contrEquiv1 d K hr hs).symm c) = ix2 c b := by
    funext ax; apply Fin.ext
    match ax with
    | ⟨0, _⟩ => exact r0
    | ⟨1, _⟩ => exact r1
  rw [l2, r2]

/-- A `K × M` left operand contracted on its first axis against an `N × K` right operand contracted on its last. -/
theorem matmul_01_zero_apply {M K N : Nat} {φ₁ φ₂ : FTy} (d : DotDims ⟨2, ![K, M]⟩ ⟨2, ![N, K]⟩ ⟨2, ![M, N]⟩)
    (hlc : d.lhsContracting = [0]) (hrc : d.rhsContracting = [1]) (hln : d.lhsNonContracting = [1])
    (hrn : d.rhsNonContracting = [0]) (hlb : d.lhsBatch = []) (hrb : d.rhsBatch = [])
    (prec : Option ContractPrecision) (A : FVec Ideal ⟨2, ![K, M]⟩ φ₁) (B : FVec Ideal ⟨2, ![N, K]⟩ φ₂)
    (a : Fin M) (b : Fin N) :
    matmul (F := Ideal) d prec A B (constant ⟨2, ![M, N]⟩ .f32 0x00000000#32) (ix2 a b)
      = ∑ c : Fin K, A (ix2 c a) * B (ix2 b c) := by
  have hr : d.contr.rank = 1 := by rw [d.rank_contr, hlc]; rfl
  have hs : d.contr.size ⟨0, by omega⟩ = K := by
    rw [d.size_contr 0 (by rw [hlc]; exact Nat.one_pos)]; simp [hlc]
  show FloatOps.matmul _ prec A B _ (ix2 a b) = _
  rw [Ideal.matmul_constant_zero_apply, ← Equiv.sum_comp (contrEquiv1 d K hr hs).symm]
  refine Finset.sum_congr rfl fun c _ => ?_
  have c2 := contrEquiv1_symm_val d K hr hs c
  have l1 := lhsIdx_val_non d hlb hln (ix2 a b) ((contrEquiv1 d K hr hs).symm c) Nat.zero_lt_two
  have l0 := (d.lhsIdx_val_of_single hlc (ix2 a b) ((contrEquiv1 d K hr hs).symm c)).trans c2
  have r1 := (d.rhsIdx_val_of_single hrc (ix2 a b) ((contrEquiv1 d K hr hs).symm c)).trans c2
  have r0 := rhsIdx_val_non d hlb hrb hln hrn (ix2 a b) ((contrEquiv1 d K hr hs).symm c) Nat.one_lt_two
  have l2 : d.lhsIdx (ix2 a b) ((contrEquiv1 d K hr hs).symm c) = ix2 c a := by
    funext ax; apply Fin.ext
    match ax with
    | ⟨0, _⟩ => exact l0
    | ⟨1, _⟩ => exact l1
  have r2 : d.rhsIdx (ix2 a b) ((contrEquiv1 d K hr hs).symm c) = ix2 b c := by
    funext ax; apply Fin.ext
    match ax with
    | ⟨0, _⟩ => exact r0
    | ⟨1, _⟩ => exact r1
  rw [l2, r2]

/-- Both operands contracted on their first axis: a `K × M` by a `K × N` operand. -/
theorem matmul_00_zero_apply {M K N : Nat} {φ₁ φ₂ : FTy} (d : DotDims ⟨2, ![K, M]⟩ ⟨2, ![K, N]⟩ ⟨2, ![M, N]⟩)
    (hlc : d.lhsContracting = [0]) (hrc : d.rhsContracting = [0]) (hln : d.lhsNonContracting = [1])
    (hrn : d.rhsNonContracting = [1]) (hlb : d.lhsBatch = []) (hrb : d.rhsBatch = [])
    (prec : Option ContractPrecision) (A : FVec Ideal ⟨2, ![K, M]⟩ φ₁) (B : FVec Ideal ⟨2, ![K, N]⟩ φ₂)
    (a : Fin M) (b : Fin N) :
    matmul (F := Ideal) d prec A B (constant ⟨2, ![M, N]⟩ .f32 0x00000000#32) (ix2 a b)
      = ∑ c : Fin K, A (ix2 c a) * B (ix2 c b) := by
  have hr : d.contr.rank = 1 := by rw [d.rank_contr, hlc]; rfl
  have hs : d.contr.size ⟨0, by omega⟩ = K := by
    rw [d.size_contr 0 (by rw [hlc]; exact Nat.one_pos)]; simp [hlc]
  show FloatOps.matmul _ prec A B _ (ix2 a b) = _
  rw [Ideal.matmul_constant_zero_apply, ← Equiv.sum_comp (contrEquiv1 d K hr hs).symm]
  refine Finset.sum_congr rfl fun c _ => ?_
  have c2 := contrEquiv1_symm_val d K hr hs c
  have l1 := lhsIdx_val_non d hlb hln (ix2 a b) ((contrEquiv1 d K hr hs).symm c) Nat.zero_lt_two
  have l0 := (d.lhsIdx_val_of_single hlc (ix2 a b) ((contrEquiv1 d K hr hs).symm c)).trans c2
  have r0 := (d.rhsIdx_val_of_single hrc (ix2 a b) ((contrEquiv1 d K hr hs).symm c)).trans c2
  have r1 := rhsIdx_val_non d hlb hrb hln hrn (ix2 a b) ((contrEquiv1 d K hr hs).symm c) Nat.one_lt_two
  have l2 : d.lhsIdx (ix2 a b) ((contrEquiv1 d K hr hs).symm c) = ix2 c a := by
    funext ax; apply Fin.ext
    match ax with
    | ⟨0, _⟩ => exact l0
    | ⟨1, _⟩ => exact l1
  have r2 : d.rhsIdx (ix2 a b) ((contrEquiv1 d K hr hs).symm c) = ix2 c b := by
    funext ax; apply Fin.ext
    match ax with
    | ⟨0, _⟩ => exact r0
    | ⟨1, _⟩ => exact r1
  rw [l2, r2]

end Cert.LibDot

end
-- ==== Proof.KernelPayload.lean ====
/-
  The kernel body's stored value, entry by entry, at the ideal values.

  The body compares the row number `j` with the destination word of each position `i` of its block (a 512 × 512 mask of
  ones and zeros) and multiplies that mask into the block of `x`: entry `(j, d)` of the product is the sum over the
  positions `i` of (one if position `i`'s destination word is `j`, else zero) times `x (i, d)`.
-/
import proofs.«167264_j41016937677038_1_alg».proof.Proof.Gen.KernelIdeal.Skeleton
import proofs.«167264_j41016937677038_1_alg».proof.Proof.LibDot
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Pay

open Cert.KernelIdeal Cert.KernelIdeal.Gen Idealize.ShloMosaic Idealize.ShloMosaic.ValueIdx

/-- The f32 pattern with exponent field 127 and zero significand is the number one. -/
theorem ofBits_one_f32 : Ideal.ofBits .f32 0x3F800000#32 = 1 := by
  simp [Ideal.ofBits, Ideal.ieee]
  rw [← EReal.coe_mul, ← EReal.coe_one]
  congr 1
  norm_num

/-- A `[1, 1, a]` array cast to `[a]` reads, at `i`, the operand at `(0, 0, i)`. -/
theorem shapeCast_11a_a_apply {α : Type} {a : ℕ} (x : (⟨3, ![1, 1, a]⟩ : Shape).Idx → α)
    (h : (⟨3, ![1, 1, a]⟩ : Shape).ShapeCasts ⟨1, ![a]⟩) (i : Fin a) :
    shapeCast ⟨1, ![a]⟩ x h (ix1 i) = x (ix3 (0 : Fin 1) (0 : Fin 1) i) :=
  shapeCast_apply x h _ _ (by
    rw [Shape.rowMajor_val_three, Shape.rowMajor_val_one]
    show (0 * 1 + 0) * a + i.val = i.val
    simp)

/-- A select on the comparison "equal" of two words is the `if` on their equality. -/
theorem select_cmpi_eq {α : Type} {w : ℕ} (x y : BitVec w) (a b : α) :
    Scalar.select (IntOp.cmpi .eq x y) a b = if x = y then a else b := by
  by_cases h : x = y
  · subst h; simp [Scalar.select, IntOp.cmpi]
  · have hb : (x == y) = false := by simpa using h
    simp [Scalar.select, IntOp.cmpi, hb, h]

/-- The row-number array at `(j, i)` is the word of `j`. -/
theorem iota_row_apply (j i : Fin 512) :
    iota .tc S512x512 32 [0] iota_S512x512_d0_w32 (ix2 j i) = BitVec.ofNat 32 j.val :=
  iota_single_apply .tc S512x512 32 0 _ (ix2 j i)

/-- The block of destination words, flattened, laid out as one row and repeated over the 512 rows, reads at `(j, i)`
    the word of position `i`. -/
theorem row_apply (v0 : Vec Ideal S1x1x512 .i32) (j i : Fin 512) :
    broadcastTo S512x512 (shapeCast S1x512 (shapeCast S1x512 (shapeCast S512 v0 shapeCasts_S1x1x512_S512)
      shapeCasts_S512_S1x512) shapeCasts_S1x512_S1x512) broadcasts_S1x512_S512x512 (ix2 j i)
      = v0 (ix3 (0 : Fin 1) (0 : Fin 1) i) := by
  refine (broadcastTo_1b_ab_apply _ _ j i).trans ?_
  rw [shapeCast_self]
  refine (shapeCast_a_1a_apply _ _ (0 : Fin 1) i).trans ?_
  exact shapeCast_11a_a_apply _ _ i

/-- The stored value at `(0, j, d)`: the masked sum over the block's positions. -/
theorem pay_apply (v0 : Vec Ideal S1x1x512 .i32) (v11 : Vec Ideal S1x512x768 .f32) (j : Fin 512) (d : Fin 768) :
    k0_pay1 (F := Ideal) v0 v11 (ix3 (0 : Fin 1) j d)
      = ∑ i : Fin 512, (if BitVec.ofNat 32 j.val = v0 (ix3 (0 : Fin 1) (0 : Fin 1) i) then (1 : EReal) else 0)
          * v11 (ix3 (0 : Fin 1) i d) := by
  unfold k0_pay1
  -- the stored block at (0, j, d) is the product at (j, d)
  refine (shapeCast_ab_1ab_apply _ _ (0 : Fin 1) j d).trans ?_
  -- the product at (j, d) is the sum over the contracted coordinate
  refine (Cert.LibDot.matmul_10_zero_apply dot_S512x512_S512x768_S512x768_1_0_0_1_n_n rfl rfl rfl rfl rfl rfl none
    _ _ j d).trans ?_
  refine Finset.sum_congr rfl fun i _ => ?_
  refine congrArg₂ (· * ·) ?_ ?_
  · -- the mask: a change of float format is the identity, and the select reads the comparison of the two words
    show Scalar.select (IntOp.cmpi .eq (iota .tc S512x512 32 [0] iota_S512x512_d0_w32 (ix2 j i))
        (broadcastTo S512x512 (shapeCast S1x512 (shapeCast S1x512 (shapeCast S512 v0 shapeCasts_S1x1x512_S512)
          shapeCasts_S512_S1x512) shapeCasts_S1x512_S1x512) broadcasts_S1x512_S512x512 (ix2 j i)))
        (Ideal.ofBits .f32 0x3F800000#32) (Ideal.ofBits .f32 0x00000000#32) = _
    rw [iota_row_apply, row_apply, select_cmpi_eq, ofBits_one_f32, Ideal.ofBits_zero_f32]
  · -- the block of x with its unit axis dropped
    exact shapeCast_1ab_ab_apply _ _ i d

end Cert.KernelIdeal.Pay

end
-- ==== Proof.Spec.lean ====
/-
  Token compaction, specified.

  A batch row `b` of `vid` marks position `i` VALID when `vid (b, i) = 1`. `cnt vid b i` counts the valid positions
  `≤ i` of that row, so a valid position `i` is the `cnt vid b i`-th valid one (counting from one) and its row of `x`
  belongs at output row `cnt vid b i - 1`. `Hit vid b j i` says exactly that position `i` is valid and lands on output
  row `j`. The compacted array `G x vid` holds at `(b, j, d)` the entry `x (b, i, d)` of the position `i` that hits `j`
  (there is at most one), and zero when none does.

  Both programs compute the destinations by the same chain of integer host operations, stated here once as `dest s vid`:
  the valid mask, its running sum along the row (a window sum of width 512 over the row padded with 511 zeros in
  front), minus one, with the word `s` in place of it at the invalid positions.
-/
import Idealize.ShloMosaic.Lib.ValueIdx
import Idealize.ShloMosaic.PureOps
import Idealize.ShloMosaic.PureOps.Ideal

noncomputable section

namespace Cert.Compact

open Idealize.ShloMosaic Idealize.ShloMosaic.ValueIdx

abbrev S0 : Shape := ⟨0, ![]⟩
abbrev SBL : Shape := ⟨2, ![64, 512]⟩
abbrev SBLD : Shape := ⟨3, ![64, 512, 768]⟩

/-- The mask of valid positions: `vid = 1`, elementwise. -/
def valid (vid : IVec SBL 32) : IVec SBL 1 :=
  cmpi .eq vid (broadcastInDim SBL ![] (by decide) (constantI S0 32 1#32))

/-- The running sum of the widened mask along each row: at `(b, i)` the sum over the 512 window positions `k` of the
    mask at `(b, i + k - 511)`, the positions before the row's start counting zero. -/
def csum (vid : IVec SBL 32) : IVec SBL 32 :=
  Host.reduceWindow IntOp.addi ![1, 512] ![1, 1] ![0, 511] ![0, 0] (extui 32 (valid vid) (by decide))
    (broadcastInDim S0 ![] (by decide) (constantI S0 32 0#32)) (by decide) (by decide)

/-- The destination row of each position: the running sum minus one where the position is valid, the word `s` where
    it is not. -/
def dest (s : BitVec 32) (vid : IVec SBL 32) : IVec SBL 32 :=
  select (valid vid) (subi (csum vid) (broadcastInDim SBL ![] (by decide) (constantI S0 32 1#32)))
    (broadcastInDim SBL ![] (by decide) (id (constantI S0 32 s)))

/-- How many positions `≤ i` of row `b` are valid. -/
def cnt (vid : IVec SBL 32) (b : Fin 64) (i : Fin 512) : Nat :=
  ((Finset.univ : Finset (Fin 512)).filter fun k => k ≤ i ∧ vid (ix2 b k) = 1#32).card

/-- Position `i` of row `b` is valid and is the `(j + 1)`-th valid position of its row: its entry lands on output
    row `j`. -/
def Hit (vid : IVec SBL 32) (b : Fin 64) (j i : Fin 512) : Prop :=
  vid (ix2 b i) = 1#32 ∧ cnt vid b i = j.val + 1

open scoped Classical in
/-- The compacted array at coordinates `(b, j, d)`. -/
def Gat (x : FVec Ideal SBLD .f32) (vid : IVec SBL 32) (b : Fin 64) (j : Fin 512) (d : Fin 768) : EReal :=
  if h : ∃ i : Fin 512, Hit vid b j i then x (ix3 b (Classical.choose h) d) else 0

/-- The compacted array. -/
def G (x : FVec Ideal SBLD .f32) (vid : IVec SBL 32) : FVec Ideal SBLD .f32 :=
  fun p => Gat x vid (p 0) (p 1) (p 2)

theorem G_ix3 (x : FVec Ideal SBLD .f32) (vid : IVec SBL 32) (b : Fin 64) (j : Fin 512) (d : Fin 768) :
    G x vid (ix3 b j d) = Gat x vid b j d := rfl

end Cert.Compact

end
-- ==== Proof.KSpec.lean ====
/-
  What the kernel computes, as one function of the argument arrays.

  At `(b, j, d)` the kernel's matrix product is the sum over the positions `i` of row `b` of (one if the destination
  word of position `i` is `j`, else zero) times `x (b, i, d)`; the kernel's destination chain uses the all-ones word
  (minus one) as the sentinel of an invalid position, which names no row.
-/
import proofs.«167264_j41016937677038_1_alg».proof.Proof.Spec

noncomputable section

open scoped BigOperators

namespace Cert.Compact

open Idealize.ShloMosaic Idealize.ShloMosaic.ValueIdx

/-- The masked sum at coordinates `(b, j, d)`. -/
def Gkat (x : FVec Ideal SBLD .f32) (vid : IVec SBL 32) (b : Fin 64) (j : Fin 512) (d : Fin 768) : EReal :=
  ∑ i : Fin 512, (if BitVec.ofNat 32 j.val = dest 4294967295#32 vid (ix2 b i) then (1 : EReal) else 0) * x (ix3 b i d)

/-- The kernel's result array. -/
def Gk (x : FVec Ideal SBLD .f32) (vid : IVec SBL 32) : FVec Ideal SBLD .f32 :=
  fun p => Gkat x vid (p 0) (p 1) (p 2)

theorem Gk_ix3 (x : FVec Ideal SBLD .f32) (vid : IVec SBL 32) (b : Fin 64) (j : Fin 512) (d : Fin 768) :
    Gk x vid (ix3 b j d) = Gkat x vid b j d := rfl

end Cert.Compact

end
-- ==== Proof.KernelValue.lean ====
/-
  The kernel's result array, from its blocks.

  Grid point `t` is batch row `t`: it stages block `t` of `x` (all 512 positions, all 768 columns) and the 512
  destination words of row `t`, and writes back block `t` of the result. The destination words the region finds were
  computed by the host operations before it: the chain `dest` with the all-ones sentinel, given a unit middle axis. What
  point `t` writes back is therefore block `t` of the masked sum `Gk` of the two argument arrays; the 64 blocks
  tile the result, so the result array ends holding `Gk`.
-/
import proofs.«167264_j41016937677038_1_alg».proof.Proof.Gen.KernelIdeal.Value
import proofs.«167264_j41016937677038_1_alg».proof.Proof.KernelPayload
import proofs.«167264_j41016937677038_1_alg».proof.Proof.KSpec
import Idealize.ShloMosaic.Lib.Pipeline.Value
import Idealize.ShloMosaic.Lib.StableHlo.Run
import Idealize.ShloMosaic.Lib.Tactic

noncomputable section

open scoped BigOperators

namespace Cert.KernelIdeal.KValue

open Cert.KernelIdeal Cert.KernelIdeal.Gen Cert.KernelIdeal.Value Cert.Compact
open Idealize.ShloMosaic Idealize.ShloMosaic.TcCoe Idealize.SL.Sem Idealize.ShloMosaic.ValueIdx Idealize.ShloMosaic.StableHlo
open Idealize.ShloMosaic.Pipeline (Dat)

variable (m : (ℓ : Loc nD τ sig) → Buf (Elt Ideal) ℓ) (ρ : Dev nD → PrngReg)

theorem hz : (![0, 0, 0] : Fin 3 → Nat) = fun _ => 0 := funext fun a => by fin_cases a <;> rfl

attribute [local irreducible] Host.reduceWindow in
/-- The destination words as the region finds them: the host chain of the second argument, with a unit middle axis. -/
theorem V_main_v7 (c : Dev nD) :
    (V m c main_v7 : S64x1x512.Idx → BitVec 32)
      = broadcastInDim S64x1x512 ![0, 2] bcast_S64x512_S64x1x512_0_2
          (dest 4294967295#32 (m ((c : Thread nD τ).loc main_arg1))) := by
  dsimp only [Gen.V]
  simp only [hostOps0, hostOps0_1, hostOps0_2, hostOps0_3, hostOps0_4, List.flatten_cons, List.flatten_nil,
    List.append_nil, List.cons_append, List.nil_append]
  after_results
  unfold dest valid csum
  rfl

/-- Grid point `t` as a batch number. -/
def bt (t : Fin cfg0.N) : Fin 64 := ⟨t.val, Nat.lt_of_lt_of_eq t.isLt (show cfg0.N = 64 from N_0)⟩

/-- The printed index maps, decided over the grid: every window's block index at point `t` is `(t, 0, 0)`. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0 :=
  (by decide +kernel : ∀ t : Fin grid0.N, _)

/-- The block of `x` at point `t` is batch row `t` of the first argument. -/
theorem iblk0_apply (c : Dev nD) (t : Fin cfg0.N) (y : S1x512x768.Idx) (k : S64x512x768.Idx)
    (hk0 : (k 0).val = t.val) (hk1 : (k 1).val = (y 1).val) (hk2 : (k 2).val = (y 2).val) :
    (iblk m c 0 t : Vec Ideal S1x512x768 .f32) y
      = (m ((c : Thread nD τ).loc main_arg0) : S64x512x768.Idx → Elt Ideal .f32) k := by
  obtain ⟨e0, e1, e2, -⟩ := idx_facts t
  unfold iblk
  rw [View.read_apply]
  show V m c main_arg0 _ = _
  rw [V_main_arg0]
  refine congrArg (m ((c : Thread nD τ).loc main_arg0)) (funext fun a => Fin.ext ?_)
  have h0 : (y 0).val < 1 := (y 0).isLt
  match a with
  | ⟨0, _⟩ => show win0_0.index t (0 : Fin 3) * 1 + 1 * (y 0).val = (k 0).val; rw [e0, hk0]; omega
  | ⟨1, _⟩ => show win0_0.index t (1 : Fin 3) * 512 + 1 * (y 1).val = (k 1).val; rw [e1, hk1]; omega
  | ⟨2, _⟩ => show win0_0.index t (2 : Fin 3) * 768 + 1 * (y 2).val = (k 2).val; rw [e2, hk2]; omega

/-- The block of destination words at point `t` is row `t` of the host chain's destinations. -/
theorem iblk1_apply (c : Dev nD) (t : Fin cfg0.N) (i : Fin 512) :
    (iblk m c 1 t : Vec Ideal S1x1x512 .i32) (ix3 (0 : Fin 1) (0 : Fin 1) i)
      = dest 4294967295#32 (m ((c : Thread nD τ).loc main_arg1)) (ix2 (bt t) i) := by
  obtain ⟨-, -, -, e0, e1, e2, -⟩ := idx_facts t
  unfold iblk
  rw [View.read_apply]
  show V m c main_v7 _ = _
  rw [V_main_v7]
  refine broadcastInDim_apply _ _ _ _ _ fun a => ?_
  match a with
  | ⟨0, _⟩ => show t.val = win0_1.index t (0 : Fin 3) * 1 + 1 * 0; rw [e0]; omega
  | ⟨1, _⟩ => show i.val = win0_1.index t (2 : Fin 3) * 512 + 1 * i.val; rw [e2]; omega

/-- The body's stored value at an index of its block: the masked sum over the block's positions. -/
theorem pay_blk (x1 : Vec Ideal S1x1x512 .i32) (x0 : Vec Ideal S1x512x768 .f32) (y : S1x512x768.Idx) :
    k0_pay1 (F := Ideal) x1 x0 y
      = ∑ i : Fin 512, (if BitVec.ofNat 32 (y 1).val = x1 (ix3 (0 : Fin 1) (0 : Fin 1) i) then (1 : EReal) else 0)
          * x0 (ix3 (0 : Fin 1) i (y 2)) := by
  obtain ⟨y0, j, d, rfl⟩ : ∃ (y0 : Fin 1) (j : Fin 512) (d : Fin 768), y = ix3 y0 j d := ⟨y 0, y 1, y 2, eq_ix3 y⟩
  obtain rfl : y0 = 0 := Subsingleton.elim _ _
  exact Cert.KernelIdeal.Pay.pay_apply x1 x0 j d

/-- The masked sum over point `t`'s blocks is the masked sum of the arguments at batch row `t`. -/
theorem blk_sum (c : Dev nD) (t : Fin cfg0.N) (j : Fin 512) (d : Fin 768) :
    (∑ i : Fin 512, (if BitVec.ofNat 32 j.val = (iblk m c 1 t : Vec Ideal S1x1x512 .i32) (ix3 (0 : Fin 1) (0 : Fin 1) i)
          then (1 : EReal) else 0) * (iblk m c 0 t : Vec Ideal S1x512x768 .f32) (ix3 (0 : Fin 1) i d))
      = Gk (m ((c : Thread nD τ).loc main_arg0)) (m ((c : Thread nD τ).loc main_arg1)) (ix3 (bt t) j d) := by
  rw [Gk_ix3]
  unfold Gkat
  refine Finset.sum_congr rfl fun i _ => ?_
  rw [iblk1_apply, iblk0_apply m c t (ix3 (0 : Fin 1) i d) (ix3 (bt t) i d) rfl rfl rfl]

/-- WHAT POINT `t` WRITES BACK is block `t` of the masked sum of the two arguments. -/
theorem flushed_eq (c : Dev nD) (t : Fin cfg0.N) :
    (dats m 0 c).flushed 2 t
      = ((cfg0.win 2).blk t).view.read (Elt Ideal)
          (Gk (m ((c : Thread nD τ).loc main_arg0)) (m ((c : Thread nD τ).loc main_arg1))) := by
  obtain ⟨-, -, -, -, -, -, e0, e1, e2⟩ := idx_facts t
  show (cfg0.win 2).cut (grid0.coords t) ((dats m 0 c).after 2 t) = _
  rw [after0_2]
  unfold out0_2
  rw [View.canon_unit_zero hz]
  simp only [View.ld_unit_zero (S := S1x512x768) hz, View.ld_unit_zero (S := S1x1x512) hz]
  funext y
  show k0_pay1 (iblk m c 1 t) (iblk m c 0 t) y
    = Gk (m ((c : Thread nD τ).loc main_arg0)) (m ((c : Thread nD τ).loc main_arg1)) (((cfg0.win 2).blk t).view.emb y)
  rw [pay_blk]
  have h0 : (y 0).val < 1 := (y 0).isLt
  have he : ((cfg0.win 2).blk t).view.emb y = ix3 (bt t) (y 1) (y 2) := by
    funext a; apply Fin.ext
    match a with
    | ⟨0, _⟩ => show win0_2.index t (0 : Fin 3) * 1 + 1 * (y 0).val = t.val; rw [e0]; omega
    | ⟨1, _⟩ => show win0_2.index t (1 : Fin 3) * 512 + 1 * (y 1).val = (y 1).val; rw [e1]; omega
    | ⟨2, _⟩ => show win0_2.index t (2 : Fin 3) * 768 + 1 * (y 2).val = (y 2).val; rw [e2]; omega
  rw [he]
  exact blk_sum m c t (y 1) (y 2)

/-- An index of the array is in point `t`'s block iff each coordinate is in the block's range on its axis. -/
theorem mem_blk (t : Fin cfg0.N) (i : S64x512x768.Idx) :
    i ∈ ((cfg0.win 2).blk t).view.set ↔ ∀ a : Fin 3, win0_2.index t a * S1x512x768.size a ≤ (i a).val
      ∧ (i a).val < win0_2.index t a * S1x512x768.size a + S1x512x768.size a := by
  show i ∈ ((View.whole main_v8).slice (win0_2.rect t)).set ↔ _
  rw [View.set_slice_whole, Rect.mem_set_unit]
  exact Iff.rfl

/-- Every index of the result lies in the block of the point that is its batch number. -/
theorem cover (i : S64x512x768.Idx) :
    ∃ t : Fin cfg0.N, (cfg0.win 2).flush t = true ∧ i ∈ ((cfg0.win 2).blk t).view.set := by
  have hi0 : (i 0).val < 64 := (i 0).isLt
  have hi1 : (i 1).val < 512 := (i 1).isLt
  have hi2 : (i 2).val < 768 := (i 2).isLt
  let t : Fin cfg0.N := ⟨(i 0).val, Nat.lt_of_lt_of_eq hi0 (show cfg0.N = 64 from N_0).symm⟩
  obtain ⟨-, -, -, -, -, -, e0, e1, e2⟩ := idx_facts t
  have ht : t.val = (i 0).val := rfl
  refine ⟨t, flush0_2 t, ?_⟩
  rw [mem_blk]
  intro a
  match a with
  | ⟨0, _⟩ => show win0_2.index t (0 : Fin 3) * 1 ≤ (i 0).val ∧ (i 0).val < win0_2.index t (0 : Fin 3) * 1 + 1; rw [e0, ht]; omega
  | ⟨1, _⟩ => show win0_2.index t (1 : Fin 3) * 512 ≤ (i 1).val ∧ (i 1).val < win0_2.index t (1 : Fin 3) * 512 + 512; rw [e1]; omega
  | ⟨2, _⟩ => show win0_2.index t (2 : Fin 3) * 768 ≤ (i 2).val ∧ (i 2).val < win0_2.index t (2 : Fin 3) * 768 + 768; rw [e2]; omega

/-- THE ARRAY after the run is the masked sum of the two arguments. -/
theorem final (c : Dev nD) :
    (dats m 0 c).arrAt 2 cfg0.N = Gk (m ((c : Thread nD τ).loc main_arg0)) (m ((c : Thread nD τ).loc main_arg1)) :=
  (dats m 0 c).arrAt_eq_of_cover 2 _ (fun t _ => flushed_eq m c t) cover

/-- The run, read: the result array at the masked sum of the arguments, the arguments unchanged. -/
theorem run : θ_run defs (onTc (τ := τ) (main (F := Ideal))) ⟨m, fun _ => 0, ρ⟩ fun r => ∀ c : Dev nD,
      r.2.mem ((c : Thread nD τ).loc main_v8)
          = Gk (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.KernelIdeal.KValue

end
-- ==== Proof.Cumsum.lean ====
/-
  The running count behind the destinations.

  The window sum `csum vid` at `(b, i)` is the number `cnt vid b i` of valid positions `≤ i` of row `b` (as a 32-bit
  word: the count is at most 512). Hence a valid position's destination `dest s vid (b, i)` is the word of
  `cnt vid b i - 1 < 512`, an invalid one's is `s`; and since the count grows by one at each valid position, two valid
  positions of one row never share a count: a row `j` is hit by at most one position.
-/
import proofs.«167264_j41016937677038_1_alg».proof.Proof.Spec
import Mathlib.Algebra.BigOperators.Fin

noncomputable section

namespace Cert.Compact

open Idealize.ShloMosaic Idealize.ShloMosaic.ValueIdx

namespace Cumsum

/-- A left fold of 32-bit additions whose terms are the words of naturals is the word of the naturals' sum. -/
theorem foldl_addi_ofNat {α : Type} (g : α → BitVec 32) (c : α → Nat) (h : ∀ n, g n = BitVec.ofNat 32 (c n))
    (l : List α) (acc : Nat) :
    l.foldl (fun r n => IntOp.addi r (g n)) (BitVec.ofNat 32 acc) = BitVec.ofNat 32 (acc + (l.map c).sum) := by
  induction l generalizing acc with
  | nil => simp
  | cons a l ih =>
    simp only [List.foldl_cons, List.map_cons, List.sum_cons]
    have : IntOp.addi (BitVec.ofNat 32 acc) (g a) = BitVec.ofNat 32 (acc + c a) := by
      rw [h, IntOp.addi, BitVec.ofNat_add]
    rw [this, ih, Nat.add_assoc]

/-- The mask of row `b` read at a natural position: one at a valid position, zero elsewhere and past the row's end. -/
def mk (vid : IVec SBL 32) (b : Fin 64) (k : Nat) : Nat :=
  if h : k < 512 then (if vid (ix2 b ⟨k, h⟩) = 1#32 then 1 else 0) else 0

/-- The widened valid bit at a position of row `b` is the word of the mask's natural value there. -/
theorem wide_valid (vid : IVec SBL 32) (b : Fin 64) (k : Nat) (h : k < 512) :
    extui 32 (valid vid) (by decide) (ix2 b ⟨k, h⟩) = BitVec.ofNat 32 (mk vid b k) := by
  show (BitVec.ofBool (vid (ix2 b ⟨k, h⟩) == 1#32)).setWidth 32 = _
  rw [mk, dif_pos h]
  by_cases hv : vid (ix2 b ⟨k, h⟩) = 1#32
  · rw [if_pos hv, hv]; rfl
  · rw [if_neg hv, beq_eq_false_iff_ne.2 hv]; rfl

/-- The window sum re-indexed: the window positions `n` that fall inside the row, `511 ≤ i + n`, are the row positions
    `k = i + n - 511 ≤ i`. -/
theorem window_sum (f : Nat → Nat) (i : Nat) (hi : i ≤ 511) :
    (∑ n ∈ Finset.range 512, if 511 ≤ i + n then f (i + n - 511) else 0) = ∑ k ∈ Finset.range (i + 1), f k := by
  rw [← Finset.sum_filter]
  refine Finset.sum_nbij' (fun n => i + n - 511) (fun k => k + 511 - i) ?_ ?_ ?_ ?_ ?_
  · intro n hn; simp only [Finset.mem_filter, Finset.mem_range] at hn ⊢; omega
  · intro k hk; simp only [Finset.mem_filter, Finset.mem_range] at hk ⊢; omega
  · intro n hn; simp only [Finset.mem_filter, Finset.mem_range] at hn ⊢; omega
  · intro k hk; simp only [Finset.mem_filter, Finset.mem_range] at hk ⊢; omega
  · intro n hn; rfl

/-- The count as a sum of the mask over the positions `≤ i`. -/
theorem cnt_eq_sum (vid : IVec SBL 32) (b : Fin 64) (i : Fin 512) :
    cnt vid b i = ∑ k ∈ Finset.range (i.val + 1), mk vid b k := by
  unfold cnt
  rw [Finset.card_filter]
  have h : ∀ k : Fin 512, (if (k ≤ i ∧ vid (ix2 b k) = 1#32) then 1 else 0)
      = (fun k : Nat => if k ≤ i.val then mk vid b k else 0) k.val := by
    intro k
    simp only [mk, dif_pos k.isLt, Fin.eta, Fin.le_def]
    by_cases h1 : k.val ≤ i.val <;> by_cases h2 : vid (ix2 b k) = 1#32 <;> simp [h1, h2]
  rw [Finset.sum_congr rfl (fun k _ => h k),
    Fin.sum_univ_eq_sum_range (fun k : Nat => if k ≤ i.val then mk vid b k else 0) 512, ← Finset.sum_filter]
  congr 1
  ext k
  simp only [Finset.mem_filter, Finset.mem_range]
  have := i.isLt
  omega

/-- The running sum at `(b, i)` is the word of the count of valid positions `≤ i` of row `b`: window position `n` reads
    row position `i + n - 511` when `511 ≤ i + n`, and the zero word before the row's start. -/
theorem csum_apply (vid : IVec SBL 32) (b : Fin 64) (i : Fin 512) :
    csum vid (ix2 b i) = BitVec.ofNat 32 (cnt vid b i) := by
  unfold csum Host.reduceWindow
  simp only []
  refine (foldl_addi_ofNat _ (fun n => if 511 ≤ i.val + n.val then mk vid b (i.val + n.val - 511) else 0) ?_ _ 0).trans ?_
  · intro n
    have hn : ((⟨2, ![1, 512]⟩ : Shape).rowMajor ((⟨2, ![1, 512]⟩ : Shape).rowMajor.symm n)).val = n.val := by
      rw [Equiv.apply_symm_apply]
    rw [Shape.rowMajor_val_two] at hn
    have h0 : ((⟨2, ![1, 512]⟩ : Shape).rowMajor.symm n 0).val < 1 := ((⟨2, ![1, 512]⟩ : Shape).rowMajor.symm n 0).isLt
    have hq0 : ((⟨2, ![1, 512]⟩ : Shape).rowMajor.symm n 0).val = 0 := by omega
    have hq1 : ((⟨2, ![1, 512]⟩ : Shape).rowMajor.symm n 1).val = n.val := by
      rw [hq0] at hn; simpa using hn
    have hnlt : n.val < 512 := by
      have := ((⟨2, ![1, 512]⟩ : Shape).rowMajor.symm n 1).isLt
      rw [← hq1]; exact this
    split
    · rename_i hin
      have h1' := hin 1
      simp [hq1] at h1'
      rw [if_pos h1'.1]
      rw [← wide_valid vid b _ h1'.2]
      congr 1
      funext a
      fin_cases a
      · apply Fin.ext; simp [hq0]
      · apply Fin.ext; simp [hq1]
    · rename_i hin
      rw [if_neg]
      · rfl
      · intro hc; apply hin; intro a; fin_cases a
        · simp [hq0]
        · have e1 : (ix2 b i (1 : Fin 2)).val = i.val := rfl
          simp [hq1, e1]; omega
  · refine congrArg (BitVec.ofNat 32) ?_
    have hN : (⟨2, ![1, 512]⟩ : Shape).numel = 512 := by decide
    rw [Nat.zero_add, ← Fin.sum_univ_def,
      Fin.sum_univ_eq_sum_range (fun n => if 511 ≤ i.val + n then mk vid b (i.val + n - 511) else 0), hN,
      window_sum _ _ (by have := i.isLt; omega), cnt_eq_sum]

/-- The count is at most the row's length. -/
theorem cnt_le (vid : IVec SBL 32) (b : Fin 64) (i : Fin 512) : cnt vid b i ≤ 512 := by
  unfold cnt
  refine (Finset.card_filter_le _ _).trans ?_
  simp

/-- The mask is one at a valid position. -/
theorem mk_valid (vid : IVec SBL 32) (b : Fin 64) (i : Fin 512) (hv : vid (ix2 b i) = 1#32) : mk vid b i.val = 1 := by
  simp only [mk, dif_pos i.isLt, Fin.eta, if_pos hv]

/-- A valid position is counted. -/
theorem cnt_pos (vid : IVec SBL 32) (b : Fin 64) (i : Fin 512) (hv : vid (ix2 b i) = 1#32) : 1 ≤ cnt vid b i := by
  rw [cnt_eq_sum, Finset.sum_range_succ, mk_valid vid b i hv]
  omega

/-- The count grows strictly up to a later valid position. -/
theorem cnt_lt (vid : IVec SBL 32) (b : Fin 64) (i i' : Fin 512) (hlt : i < i') (hv : vid (ix2 b i') = 1#32) :
    cnt vid b i < cnt vid b i' := by
  rw [cnt_eq_sum, cnt_eq_sum vid b i', Finset.sum_range_succ _ i'.val, mk_valid vid b i' hv]
  have hle : i.val + 1 ≤ i'.val := Fin.lt_def.1 hlt
  have hsub : Finset.range (i.val + 1) ⊆ Finset.range i'.val := Finset.range_mono hle
  have := Finset.sum_le_sum_of_subset (f := mk vid b) hsub
  omega

/-- The destination word read at a position: the select of the valid bit between the running sum minus one and `s`. -/
theorem dest_apply (s : BitVec 32) (vid : IVec SBL 32) (b : Fin 64) (i : Fin 512) :
    dest s vid (ix2 b i)
      = Scalar.select (BitVec.ofBool (vid (ix2 b i) == 1#32)) (csum vid (ix2 b i) - 1#32) s := rfl

/-- Words of naturals below `2 ^ 32` are equal only when the naturals are. -/
theorem ofNat_inj {m n : Nat} (hm : m < 512) (hn : n < 512) (h : BitVec.ofNat 32 m = BitVec.ofNat 32 n) : m = n := by
  have := congrArg BitVec.toNat h
  simp only [BitVec.toNat_ofNat] at this
  omega

end Cumsum

open Cumsum

/-- Every position is either invalid, with destination word `s`, or hits exactly the row its destination word names. -/
theorem dest_cases (s : BitVec 32) (vid : IVec SBL 32) (b : Fin 64) (i : Fin 512) :
    (vid (ix2 b i) ≠ 1#32 ∧ dest s vid (ix2 b i) = s)
      ∨ (∃ j : Fin 512, Hit vid b j i ∧ dest s vid (ix2 b i) = BitVec.ofNat 32 j.val) := by
  by_cases hv : vid (ix2 b i) = 1#32
  · right
    have h1 := cnt_pos vid b i hv
    have h2 := cnt_le vid b i
    obtain ⟨c, hc⟩ : ∃ c, cnt vid b i = c + 1 := ⟨cnt vid b i - 1, by omega⟩
    refine ⟨⟨c, by omega⟩, ⟨hv, hc⟩, ?_⟩
    rw [dest_apply, csum_apply, hv, hc, BitVec.ofNat_add]
    show BitVec.ofNat 32 c + BitVec.ofNat 32 1 - 1#32 = BitVec.ofNat 32 c
    exact BitVec.add_sub_cancel _ _
  · left
    refine ⟨hv, ?_⟩
    rw [dest_apply, beq_eq_false_iff_ne.2 hv]
    rfl

/-- A position hits at most one row. -/
theorem hit_row_unique (vid : IVec SBL 32) (b : Fin 64) (j j' i : Fin 512) (h : Hit vid b j i) (h' : Hit vid b j' i) :
    j = j' := by
  have h1 := h.2
  have h2 := h'.2
  exact Fin.ext (by omega)

/-- A row is hit by at most one position: the count is strictly increasing along the valid positions. -/
theorem hit_unique (vid : IVec SBL 32) (b : Fin 64) (j i i' : Fin 512) (h : Hit vid b j i) (h' : Hit vid b j i') :
    i = i' := by
  have h1 := h.2
  have h2 := h'.2
  rcases lt_trichotomy i i' with hlt | heq | hgt
  · have := cnt_lt vid b i i' hlt h'.1; omega
  · exact heq
  · have := cnt_lt vid b i' i hgt h.1; omega

/-- With a sentinel word `s` that names no row, the destination word names row `j` exactly at the positions that hit it. -/
theorem dest_eq_iff (s : BitVec 32) (hs : ∀ j : Fin 512, s ≠ BitVec.ofNat 32 j.val) (vid : IVec SBL 32) (b : Fin 64)
    (j i : Fin 512) : dest s vid (ix2 b i) = BitVec.ofNat 32 j.val ↔ Hit vid b j i := by
  constructor
  · intro hd
    rcases dest_cases s vid b i with ⟨_, hds⟩ | ⟨j', hj', hdj⟩
    · exact absurd (hds.symm.trans hd) (hs j)
    · have : j' = j := Fin.ext (ofNat_inj j'.isLt j.isLt (hdj.symm.trans hd))
      exact this ▸ hj'
  · intro hh
    rcases dest_cases s vid b i with ⟨hv, _⟩ | ⟨j', hj', hdj⟩
    · exact absurd hh.1 hv
    · rw [hdj, hit_row_unique vid b j j' i hh hj']

end Cert.Compact

end
-- ==== Proof.Bridge.lean ====
/-
  The masked sum is the compacted array.

  The kernel's sentinel, the all-ones word, names no row, so the mask entry of position `i` at row `j` is one exactly when
  position `i` hits row `j`. At most one position hits a row: the sum over the positions has at most one non-zero
  term, the entry of `x` at that position; with no hit every term is zero. (On the extended reals zero times anything is
  zero and one times anything is itself, so no finiteness is used.)
-/
import proofs.«167264_j41016937677038_1_alg».proof.Proof.KSpec
import proofs.«167264_j41016937677038_1_alg».proof.Proof.Cumsum

noncomputable section

open scoped BigOperators

namespace Cert.Compact

open Idealize.ShloMosaic Idealize.ShloMosaic.ValueIdx

/-- The all-ones word is the word of no row number below 512. -/
theorem ones_ne_row (j : Fin 512) : (4294967295#32 : BitVec 32) ≠ BitVec.ofNat 32 j.val := by
  intro h
  have h' := congrArg BitVec.toNat h
  have hj : j.val < 512 := j.isLt
  simp only [BitVec.toNat_ofNat, BitVec.toNat_ofNat] at h'
  omega

/-- The kernel's masked sum is the compacted array. -/
theorem Gk_eq_G (x : FVec Ideal SBLD .f32) (vid : IVec SBL 32) : Gk x vid = G x vid := by
  funext p
  obtain ⟨b, j, d, rfl⟩ : ∃ (b : Fin 64) (j : Fin 512) (d : Fin 768), p = ix3 b j d := ⟨p 0, p 1, p 2, eq_ix3 p⟩
  rw [Gk_ix3, G_ix3]
  unfold Gkat Gat
  have key : ∀ i : Fin 512, (BitVec.ofNat 32 j.val = dest 4294967295#32 vid (ix2 b i)) ↔ Hit vid b j i :=
    fun i => eq_comm.trans (dest_eq_iff _ ones_ne_row vid b j i)
  by_cases h : ∃ i : Fin 512, Hit vid b j i
  · rw [dif_pos h]
    have hi0 := Classical.choose_spec h
    rw [Finset.sum_eq_single (Classical.choose h)]
    · rw [if_pos ((key _).mpr hi0), one_mul]
    · intro i _ hne
      rw [if_neg (fun hh => hne (hit_unique vid b j i _ ((key i).mp hh) hi0)), zero_mul]
    · intro hn; exact absurd (Finset.mem_univ _) hn
  · rw [dif_neg h]
    refine Finset.sum_eq_zero fun i _ => ?_
    rw [if_neg (fun hh => h ⟨i, (key i).mp hh⟩), zero_mul]

end Cert.Compact

end
-- ==== Proof.RefRun.lean ====
/-
  The reference program's run.

  @main of the reference is a straight line of thirty-eight host operations (the functions jax outlined for the running sum and
  for the select are listed at their calls, over the calls' own buffers). Every weakly fair execution runs them in order,
  so the result buffer ends at the operations' composed term of the two arguments, `refOut`, and the arguments are
  untouched. `refOut` scatters the rows of `x` into a zero array of 513 rows per batch at the index pairs
  (batch, destination row) — the destination chain is `Compact.dest` with the dump row 512 as the sentinel, each
  component passed through jax's wrap of negative indices — and keeps rows 0 to 511.
-/
import proofs.«167264_j41016937677038_1_alg».proof.Proof.Gen.ReferenceIdeal
import proofs.«167264_j41016937677038_1_alg».proof.Proof.Spec
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem
open Idealize.ShloMosaic.StableHlo Cert.Compact

variable {F : FTy → Type} [FloatOps F]

/-- The batch numbers as a column, `0 … 63`. -/
def batchIota : IVec S64x1 32 := broadcastInDim S64x1 ![0] bcast_S64_S64x1_0 (iotaInDim S64 32 0)

/-- The batch component of the scatter indices: the batch number, a negative one wrapped by 64 (none is). -/
def batchIdx : IVec S64x1 32 :=
  select (cmpi .slt batchIota (broadcastInDim S64x1 ![] bcast_S_S64x1 (constantI S_ 32 0#32)))
    (addi batchIota (broadcastInDim S64x1 ![] bcast_S_S64x1 (constantI S_ 32 64#32))) batchIota

/-- The row component of the scatter indices: the destination with the dump row 512 at the invalid positions, a negative
    one wrapped by 513 (none is). -/
def rowIdx (vid : IVec S64x512 32) : IVec S64x512 32 :=
  select (cmpi .slt (dest 512#32 vid) (broadcastInDim S64x512 ![] bcast_S_S64x512 (constantI S_ 32 0#32)))
    (addi (dest 512#32 vid) (broadcastInDim S64x512 ![] bcast_S_S64x512 (constantI S_ 32 513#32))) (dest 512#32 vid)

/-- The scatter indices: at `(b, i, ·)` the pair (batch component, row component). -/
def refIdx (vid : IVec S64x512 32) : IVec S64x512x2 32 :=
  concatenate S64x512x2 2
    [⟨S64x512x1, broadcastInDim S64x512x1 ![0, 1] bcast_S64x512_S64x512x1_0_1
        (broadcastInDim S64x512 ![0, 1] bcast_S64x1_S64x512_0_1 batchIdx)⟩,
     ⟨S64x512x1, broadcastInDim S64x512x1 ![0, 1] bcast_S64x512_S64x512x1_0_1 (rowIdx vid)⟩]
    concatenates_S64x512x1_S64x512x1_S64x512x2_d2

/-- The scattered array, 513 rows per batch: the zero array with the rows of `x` written at their index pairs. -/
def scattered (x : FVec F S64x512x768 .f32) (vid : IVec S64x512 32) : FVec F S64x513x768 .f32 :=
  Host.scatter scatter_S64x513x768_S64x512x2_S64x512x768_2_01_01_2 (fun _ b => b)
    (broadcastInDim S64x513x768 ![] bcast_S_S64x513x768 (constant S_ .f32 0x00000000#32)) (refIdx vid) x

/-- The reference's result: rows 0 to 511 of the scattered array. -/
def refOut (x : FVec F S64x512x768 .f32) (vid : IVec S64x512 32) : FVec F S64x512x768 .f32 :=
  extractStridedSlice S64x512x768 ![0, 0, 0] (scattered x vid) slices_S64x513x768_S64x512x768_0_0_0

/-- @main's operations in order, the two calls unfolded: the running sum's three (the scalar zero, its trivial
    broadcast, the window sum) over the buffers of the call of the running sum, the select's three (the sentinel
    converted to its own type, broadcast, the select) over the buffers of the call of the select; around them @main's
    own thirty-two. -/
abbrev ops : List (HloOp τ sig (Elt F)) :=
  [ nullary main_c (constantI S_ 32 1#32),
    unary main_c main_v0 (broadcastInDim S64x512 ![] bcast_S_S64x512 : (⟨S_, .i32⟩ : BufTy).Contents (Elt F) → (⟨S64x512, .i32⟩ : BufTy).Contents (Elt F)),
    binary main_arg1 main_v0 main_v1 (cmpi .eq : (⟨S64x512, .i32⟩ : BufTy).Contents (Elt F) → (⟨S64x512, .i32⟩ : BufTy).Contents (Elt F) → (⟨S64x512, .i1⟩ : BufTy).Contents (Elt F)),
    unary main_v1 main_v2 ((extui 32 · natLt_1_32) : (⟨S64x512, .i1⟩ : BufTy).Contents (Elt F) → (⟨S64x512, .i32⟩ : BufTy).Contents (Elt F)),
    TRef.nullary (.of main_call0_call0_c : TRef sig ⟨S_, .i32⟩) (constantI S_ 32 0#32),
    TRef.unary (.of main_call0_call0_c : TRef sig ⟨S_, .i32⟩) (.of main_call0_call0_v0 : TRef sig ⟨S_, .i32⟩) (broadcastInDim S_ ![] bcast_S_S_),
    TRef.binary (.of main_v2 : TRef sig ⟨S64x512, .i32⟩) (.of main_call0_call0_v0 : TRef sig ⟨S_, .i32⟩) (.of main_v3 : TRef sig ⟨S64x512, .i32⟩) (fun x v => Host.reduceWindow IntOp.addi ![1, 512] ![1, 1] ![0, 511] ![0, 0] x v reduceWindows_S64x512_S64x512_w1s1p0_0_w512s1p511_0 h_S_),
    nullary main_c_0 (constantI S_ 32 1#32),
    unary main_c_0 main_v4 (broadcastInDim S64x512 ![] bcast_S_S64x512 : (⟨S_, .i32⟩ : BufTy).Contents (Elt F) → (⟨S64x512, .i32⟩ : BufTy).Contents (Elt F)),
    binary main_v3 main_v4 main_v5 (subi : (⟨S64x512, .i32⟩ : BufTy).Contents (Elt F) → (⟨S64x512, .i32⟩ : BufTy).Contents (Elt F) → (⟨S64x512, .i32⟩ : BufTy).Contents (Elt F)),
    nullary main_c_1 (constantI S_ 32 512#32),
    TRef.unary (.of main_c_1 : TRef sig ⟨S_, .i32⟩) (.of main_call1_v0 : TRef sig ⟨S_, .i32⟩) id,
    TRef.unary (.of main_call1_v0 : TRef sig ⟨S_, .i32⟩) (.of main_call1_v1 : TRef sig ⟨S64x512, .i32⟩) (broadcastInDim S64x512 ![] bcast_S_S64x512),
    TRef.ternary (.of main_v1 : TRef sig ⟨S64x512, .i1⟩) (.of main_v5 : TRef sig ⟨S64x512, .i32⟩) (.of main_call1_v1 : TRef sig ⟨S64x512, .i32⟩) (.of main_v6 : TRef sig ⟨S64x512, .i32⟩) select,
    nullary main_v7 (iotaInDim S64 32 0),
    unary main_v7 main_v8 (broadcastInDim S64x1 ![0] bcast_S64_S64x1_0 : (⟨S64, .i32⟩ : BufTy).Contents (Elt F) → (⟨S64x1, .i32⟩ : BufTy).Contents (Elt F)),
    nullary main_cst (constant S_ .f32 0x00000000#32),
    unary main_cst main_v9 (broadcastInDim S64x513x768 ![] bcast_S_S64x513x768 : (⟨S_, .f32⟩ : BufTy).Contents (Elt F) → (⟨S64x513x768, .f32⟩ : BufTy).Contents (Elt F)),
    nullary main_c_2 (constantI S_ 32 0#32),
    unary main_c_2 main_v10 (broadcastInDim S64x1 ![] bcast_S_S64x1 : (⟨S_, .i32⟩ : BufTy).Contents (Elt F) → (⟨S64x1, .i32⟩ : BufTy).Contents (Elt F)),
    binary main_v8 main_v10 main_v11 (cmpi .slt : (⟨S64x1, .i32⟩ : BufTy).Contents (Elt F) → (⟨S64x1, .i32⟩ : BufTy).Contents (Elt F) → (⟨S64x1, .i1⟩ : BufTy).Contents (Elt F)),
    nullary main_c_3 (constantI S_ 32 64#32),
    unary main_c_3 main_v12 (broadcastInDim S64x1 ![] bcast_S_S64x1 : (⟨S_, .i32⟩ : BufTy).Contents (Elt F) → (⟨S64x1, .i32⟩ : BufTy).Contents (Elt F)),
    binary main_v8 main_v12 main_v13 (addi : (⟨S64x1, .i32⟩ : BufTy).Contents (Elt F) → (⟨S64x1, .i32⟩ : BufTy).Contents (Elt F) → (⟨S64x1, .i32⟩ : BufTy).Contents (Elt F)),
    ternary main_v11 main_v13 main_v8 main_v14 (select : (⟨S64x1, .i1⟩ : BufTy).Contents (Elt F) → (⟨S64x1, .i32⟩ : BufTy).Contents (Elt F) → (⟨S64x1, .i32⟩ : BufTy).Contents (Elt F) → (⟨S64x1, .i32⟩ : BufTy).Contents (Elt F)),
    nullary main_c_4 (constantI S_ 32 0#32),
    unary main_c_4 main_v15 (broadcastInDim S64x512 ![] bcast_S_S64x512 : (⟨S_, .i32⟩ : BufTy).Contents (Elt F) → (⟨S64x512, .i32⟩ : BufTy).Contents (Elt F)),
    binary main_v6 main_v15 main_v16 (cmpi .slt : (⟨S64x512, .i32⟩ : BufTy).Contents (Elt F) → (⟨S64x512, .i32⟩ : BufTy).Contents (Elt F) → (⟨S64x512, .i1⟩ : BufTy).Contents (Elt F)),
    nullary main_c_5 (constantI S_ 32 513#32),
    unary main_c_5 main_v17 (broadcastInDim S64x512 ![] bcast_S_S64x512 : (⟨S_, .i32⟩ : BufTy).Contents (Elt F) → (⟨S64x512, .i32⟩ : BufTy).Contents (Elt F)),
    binary main_v6 main_v17 main_v18 (addi : (⟨S64x512, .i32⟩ : BufTy).Contents (Elt F) → (⟨S64x512, .i32⟩ : BufTy).Contents (Elt F) → (⟨S64x512, .i32⟩ : BufTy).Contents (Elt F)),
    ternary main_v16 main_v18 main_v6 main_v19 (select : (⟨S64x512, .i1⟩ : BufTy).Contents (Elt F) → (⟨S64x512, .i32⟩ : BufTy).Contents (Elt F) → (⟨S64x512, .i32⟩ : BufTy).Contents (Elt F) → (⟨S64x512, .i32⟩ : BufTy).Contents (Elt F)),
    unary main_v14 main_v20 (broadcastInDim S64x512 ![0, 1] bcast_S64x1_S64x512_0_1 : (⟨S64x1, .i32⟩ : BufTy).Contents (Elt F) → (⟨S64x512, .i32⟩ : BufTy).Contents (Elt F)),
    unary main_v20 main_v21 (broadcastInDim S64x512x1 ![0, 1] bcast_S64x512_S64x512x1_0_1 : (⟨S64x512, .i32⟩ : BufTy).Contents (Elt F) → (⟨S64x512x1, .i32⟩ : BufTy).Contents (Elt F)),
    unary main_v19 main_v22 (broadcastInDim S64x512x1 ![0, 1] bcast_S64x512_S64x512x1_0_1 : (⟨S64x512, .i32⟩ : BufTy).Contents (Elt F) → (⟨S64x512x1, .i32⟩ : BufTy).Contents (Elt F)),
    binary main_v21 main_v22 main_v23 ((fun a b => concatenate S64x512x2 2 [⟨S64x512x1, a⟩, ⟨S64x512x1, b⟩] concatenates_S64x512x1_S64x512x1_S64x512x2_d2) : (⟨S64x512x1, .i32⟩ : BufTy).Contents (Elt F) → (⟨S64x512x1, .i32⟩ : BufTy).Contents (Elt F) → (⟨S64x512x2, .i32⟩ : BufTy).Contents (Elt F)),
    ternary main_v9 main_v23 main_arg0 main_v24 ((fun x i u => Host.scatter scatter_S64x513x768_S64x512x2_S64x512x768_2_01_01_2 (fun _ b => b) x i u) : (⟨S64x513x768, .f32⟩ : BufTy).Contents (Elt F) → (⟨S64x512x2, .i32⟩ : BufTy).Contents (Elt F) → (⟨S64x512x768, .f32⟩ : BufTy).Contents (Elt F) → (⟨S64x513x768, .f32⟩ : BufTy).Contents (Elt F)),
    unary main_v24 main_v25 ((extractStridedSlice S64x512x768 ![0, 0, 0] · slices_S64x513x768_S64x512x768_0_0_0) : (⟨S64x513x768, .f32⟩ : BufTy).Contents (Elt F) → (⟨S64x512x768, .f32⟩ : BufTy).Contents (Elt F)) ]

set_option maxRecDepth 4096 in
/-- @main is that straight line: the functions' bodies unfolded at their calls and the records at their fields, both
    sides are one chain of operation steps once sequencing is reassociated. -/
theorem main_eq (c : Dev nD) : main (F := F) c = seq ops := by
  simp only [main, fn_cumsum.body, fn_cumsum_0.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., unary_bufs_sub .., nullary_bufs_sub .., unary_bufs_sub ..,
    binary_bufs_sub .., nullary_bufs_sub .., unary_bufs_sub .., binary_bufs_sub .., nullary_bufs_sub .., unary_bufs_sub ..,
    unary_bufs_sub .., ternary_bufs_sub .., nullary_bufs_sub .., unary_bufs_sub .., nullary_bufs_sub .., unary_bufs_sub ..,
    nullary_bufs_sub .., unary_bufs_sub .., binary_bufs_sub .., nullary_bufs_sub .., unary_bufs_sub .., binary_bufs_sub ..,
    ternary_bufs_sub .., nullary_bufs_sub .., unary_bufs_sub .., binary_bufs_sub .., nullary_bufs_sub .., unary_bufs_sub ..,
    binary_bufs_sub .., ternary_bufs_sub .., unary_bufs_sub .., unary_bufs_sub .., unary_bufs_sub .., binary_bufs_sub ..,
    ternary_bufs_sub .., unary_bufs_sub ..⟩

-- The window sum and the scatter are kept folded while the two sides are compared: the equation never looks inside them.
attribute [local irreducible] Host.scatter Host.reduceWindow in
set_option maxHeartbeats 4000000 in
/-- On every device, from any memory with zero counters: every weakly fair execution of @main terminates with the result
    at `refOut` of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v25)
          = refOut (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  -- Each operation's result at its own result buffer is its function's value at its operands' contents, and at any
  -- other buffer what was there: composing the thirty-eight, the result buffer holds the slice of the scatter of `x`
  -- into the zero array at the concatenated index pairs, which is `refOut` with its definitions (and the destination
  -- chain's) unfolded; no operation writes an argument's buffer.
  (θ_run defs _ _).mono (fun _ h c => ⟨(h c main_v25).trans (by
        after_results
        unfold refOut scattered refIdx rowIdx batchIdx batchIota dest valid csum
        rfl),
      (h c main_arg0).trans (by after_results),
      (h c main_arg1).trans (by after_results)⟩)
    (run_seq scopedRefs_eq scopedSems_eq defs main (fun _ => ops) main_eq (fun _ => ops_sub) m ρ)

end Cert.ReferenceIdeal.RefRun

end
-- ==== Proof.LibScatterSet.lean ====
/-
  A host scatter whose body keeps the update (`x.at[idx].set(upd)`), read at one operand index.

  The scatter is the left fold, over the update indices in row-major order, of "write the update's element at the
  operand index it lands on, if it lands inside". At an operand index `i`: if no update lands on `i` the operand's
  element survives; if some update lands on `i` and all the updates that land there carry one value, that value is the
  result, whatever their order.
-/
import Idealize.ShloMosaic.PureOps

noncomputable section

namespace Cert.LibScatterSet

open Idealize.ShloMosaic

variable {s si u : Shape} {w : Nat} {α : Type}

/-- One step of the fold of a scatter whose body keeps the update: update number `n` overwrites the element at the
    operand index it lands on, and changes nothing when it lands outside. -/
def setStep (d : ScatterDims s si u) (idx : IVec si w) (upd : u.Idx → α) (r : s.Idx → α) (n : Fin u.numel) : s.Idx → α :=
  match d.resultIdx? (u.rowMajor.symm n) idx with
  | some i => fun i' => if i' = i then upd (u.rowMajor.symm n) else r i'
  | none => r

/-- The scatter whose body keeps the update is the left fold of `setStep` over the update numbers in order. -/
theorem scatter_set_eq_foldl (d : ScatterDims s si u) (x : s.Idx → α) (idx : IVec si w) (upd : u.Idx → α) :
    Host.scatter d (fun _ b => b) x idx upd = (List.finRange u.numel).foldl (setStep d idx upd) x := rfl

/-- A step whose update does not land on `i` leaves the element at `i` as it was. -/
theorem setStep_apply_of_ne (d : ScatterDims s si u) (idx : IVec si w) (upd : u.Idx → α) (r : s.Idx → α) (n : Fin u.numel)
    (i : s.Idx) (h : d.resultIdx? (u.rowMajor.symm n) idx ≠ some i) : setStep d idx upd r n i = r i := by
  unfold setStep
  cases hn : d.resultIdx? (u.rowMajor.symm n) idx with
  | none => rfl
  | some i' =>
    have hne : i ≠ i' := fun e => h (by rw [hn, e])
    simp only [if_neg hne]

/-- A step whose update lands on `i` puts the update's value at `i`. -/
theorem setStep_apply_of_eq (d : ScatterDims s si u) (idx : IVec si w) (upd : u.Idx → α) (r : s.Idx → α) (n : Fin u.numel)
    (i : s.Idx) (h : d.resultIdx? (u.rowMajor.symm n) idx = some i) :
    setStep d idx upd r n i = upd (u.rowMajor.symm n) := by
  unfold setStep
  rw [h]
  simp only [if_true]

/-- Folding the steps of a list of update numbers none of which lands on `i` keeps the element at `i`. -/
theorem foldl_setStep_apply_of_miss (d : ScatterDims s si u) (idx : IVec si w) (upd : u.Idx → α) (i : s.Idx)
    (l : List (Fin u.numel)) :
    ∀ r : s.Idx → α, (∀ n ∈ l, d.resultIdx? (u.rowMajor.symm n) idx ≠ some i) →
      l.foldl (setStep d idx upd) r i = r i := by
  induction l with
  | nil => intro r _; rfl
  | cons n l ih =>
    intro r h
    rw [List.foldl_cons, ih _ (fun m hm => h m (List.mem_cons_of_mem _ hm)),
      setStep_apply_of_ne d idx upd r n i (h n List.mem_cons_self)]

/-- Folding the steps of a list of update numbers, all of whose updates that land on `i` carry the value `v`: when
    some update of the list lands on `i`, or the element at `i` already is `v`, the element at `i` ends as `v`
    (the last update that lands there writes `v`, and nothing after it touches `i`). -/
theorem foldl_setStep_apply_of_hit (d : ScatterDims s si u) (idx : IVec si w) (upd : u.Idx → α) (i : s.Idx) (v : α)
    (l : List (Fin u.numel)) :
    ∀ r : s.Idx → α, (∀ n ∈ l, d.resultIdx? (u.rowMajor.symm n) idx = some i → upd (u.rowMajor.symm n) = v) →
      ((∃ n ∈ l, d.resultIdx? (u.rowMajor.symm n) idx = some i) ∨ r i = v) →
      l.foldl (setStep d idx upd) r i = v := by
  induction l with
  | nil =>
    intro r _ h
    rcases h with ⟨n, hn, _⟩ | h
    · cases hn
    · exact h
  | cons n l ih =>
    intro r hv h
    rw [List.foldl_cons]
    apply ih _ (fun m hm => hv m (List.mem_cons_of_mem _ hm))
    by_cases hn : d.resultIdx? (u.rowMajor.symm n) idx = some i
    · -- update `n` itself lands on `i`: after its step the element is `v`
      right
      rw [setStep_apply_of_eq d idx upd r n i hn]
      exact hv n List.mem_cons_self hn
    · rcases h with ⟨m, hm, e⟩ | h
      · rcases List.mem_cons.1 hm with rfl | hm'
        · exact absurd e hn
        · exact Or.inl ⟨m, hm', e⟩
      · right
        rw [setStep_apply_of_ne d idx upd r n i hn]
        exact h

/-- No update lands on `i`: the operand's element is kept. -/
theorem scatter_set_apply_of_miss (d : ScatterDims s si u) (x : s.Idx → α) (idx : IVec si w) (upd : u.Idx → α) (i : s.Idx)
    (hmiss : ∀ j : u.Idx, d.resultIdx? j idx ≠ some i) :
    Host.scatter d (fun _ b => b) x idx upd i = x i := by
  rw [scatter_set_eq_foldl]
  exact foldl_setStep_apply_of_miss d idx upd i _ x (fun n _ => hmiss _)

/-- Update `j0` lands on `i`, and every update that lands on `i` carries `j0`'s value: that value is the result. -/
theorem scatter_set_apply_of_hit (d : ScatterDims s si u) (x : s.Idx → α) (idx : IVec si w) (upd : u.Idx → α) (i : s.Idx)
    (j0 : u.Idx) (h0 : d.resultIdx? j0 idx = some i) (huniq : ∀ j : u.Idx, d.resultIdx? j idx = some i → upd j = upd j0) :
    Host.scatter d (fun _ b => b) x idx upd i = upd j0 := by
  rw [scatter_set_eq_foldl]
  refine foldl_setStep_apply_of_hit d idx upd i (upd j0) _ x (fun n _ hn => huniq _ hn) (Or.inl ⟨u.rowMajor j0, List.mem_finRange _, ?_⟩)
  rw [Equiv.symm_apply_apply]
  exact h0

end Cert.LibScatterSet

end
-- ==== Proof.ScatterRows.lean ====
/-
  Where an update of a row scatter lands.

  Operand `[64, 513, 768]`, indices `[64, 512, 2]`, updates `[64, 512, 768]`; the index vector is the last axis of the
  indices and names operand axes 0 and 1, both inserted, and the updates' last axis is the window over operand axis 2.
  The update `(b, i, d)` reads its start `(idx (b, i, 0), idx (b, i, 1))` signed, and lands on operand index
  `(r, q, d)` when those two words are the in-range numbers `r` and `q`.
-/
import Idealize.ShloMosaic.Lib.ValueIdx
import Idealize.ShloMosaic.PureOps

noncomputable section

namespace Cert.ScatterRows

open Idealize.ShloMosaic Idealize.ShloMosaic.ValueIdx

section Axes

variable (d : ScatterDims ⟨3, ![64, 513, 768]⟩ ⟨3, ![64, 512, 2]⟩ ⟨3, ![64, 512, 768]⟩)

/-- The indices' axes other than the index vector's (axis 2) are axes 0 and 1. -/
theorem siKept_eq (hiv : d.indexVectorDim = 2) : d.siKept = [0, 1] := by
  show (List.finRange 3).filter (fun x : Fin 3 => decide (x.val ≠ d.indexVectorDim)) = _
  rw [hiv]; decide

/-- The updates' axes other than the window axis 2 are axes 0 and 1. -/
theorem uScatter_eq (huw : d.updateWindowDims = [2]) : d.uScatter = [0, 1] := by
  show Shape.kept _ d.updateWindowDims = _
  rw [huw]; decide

/-- The operand's one axis that is not inserted is axis 2. -/
theorem sKept_eq (hiw : d.insertedWindowDims = [0, 1]) : d.sKept = [2] := by
  show Shape.kept _ d.insertedWindowDims = _
  rw [hiw]; decide

end Axes

section Read

variable (d : ScatterDims ⟨3, ![64, 513, 768]⟩ ⟨3, ![64, 512, 2]⟩ ⟨3, ![64, 512, 768]⟩)

/-- A coordinate of an update index read on two axes with the same number is the same number. -/
theorem coord_congr (j : Shape.Idx ⟨3, ![64, 512, 768]⟩) (p q : Fin 3) (h : p = q) : (j p).val = (j q).val := by
  subst h; rfl

/-- The update `(b, i, dd)` reads component `c` of its start at the indices' position `(b, i, c)`: its coordinates on
    the update scatter axes 0 and 1, and `c` on the index vector's axis. -/
theorem siIdx_rows (huw : d.updateWindowDims = [2]) (hiv : d.indexVectorDim = 2) (b : Fin 64) (i : Fin 512) (dd : Fin 768)
    (c : Fin d.scatterDimsToOperandDims.length) (c' : Fin 2) (hc : c.val = c'.val) :
    d.siIdx (ix3 b i dd) c = ix3 b i c' := by
  have hsk := siKept_eq d hiv
  have hus := uScatter_eq d huw
  funext ax
  apply Fin.ext
  match ax with
  | ⟨0, h⟩ =>
    have hne : ¬ (⟨0, h⟩ : Fin 3).val = d.indexVectorDim := by rw [hiv]; show ¬ (0 : Nat) = 2; decide
    unfold ScatterDims.siIdx
    rw [dif_neg hne]
    unfold ScatterDims.siCoord
    simp only [Fin.val_cast]
    refine (coord_congr (ix3 b i dd) _ 0 ?_).trans rfl
    simp [hsk, hus]
  | ⟨1, h⟩ =>
    have hne : ¬ (⟨1, h⟩ : Fin 3).val = d.indexVectorDim := by rw [hiv]; show ¬ (1 : Nat) = 2; decide
    unfold ScatterDims.siIdx
    rw [dif_neg hne]
    unfold ScatterDims.siCoord
    simp only [Fin.val_cast]
    refine (coord_congr (ix3 b i dd) _ 1 ?_).trans rfl
    simp [hsk, hus]
  | ⟨2, h⟩ =>
    have he : (⟨2, h⟩ : Fin 3).val = d.indexVectorDim := by rw [hiv]
    unfold ScatterDims.siIdx
    rw [dif_pos he]
    exact hc

end Read

section Sums

variable (d : ScatterDims ⟨3, ![64, 513, 768]⟩ ⟨3, ![64, 512, 2]⟩ ⟨3, ![64, 512, 768]⟩)

/-- On operand axis 0, the first axis the index vector names, the start is the first index word, read signed. -/
theorem start_0 (huw : d.updateWindowDims = [2]) (hsd : d.scatterDimsToOperandDims = [0, 1]) (hiv : d.indexVectorDim = 2)
    (idx : IVec ⟨3, ![64, 512, 2]⟩ 32) (b : Fin 64) (i : Fin 512) (dd : Fin 768) :
    d.start (ix3 b i dd) idx (0 : Fin 3) = (idx (ix3 b i (0 : Fin 2))).toInt := by
  have ha : (0 : Fin 3) ∈ d.scatterDimsToOperandDims := by rw [hsd]; decide
  unfold ScatterDims.start
  rw [dif_pos ha, siIdx_rows d huw hiv b i dd _ 0 (by simp [hsd])]

/-- On operand axis 1, the second axis the index vector names, the start is the second index word, read signed. -/
theorem start_1 (huw : d.updateWindowDims = [2]) (hsd : d.scatterDimsToOperandDims = [0, 1]) (hiv : d.indexVectorDim = 2)
    (idx : IVec ⟨3, ![64, 512, 2]⟩ 32) (b : Fin 64) (i : Fin 512) (dd : Fin 768) :
    d.start (ix3 b i dd) idx (1 : Fin 3) = (idx (ix3 b i (1 : Fin 2))).toInt := by
  have ha : (1 : Fin 3) ∈ d.scatterDimsToOperandDims := by rw [hsd]; decide
  unfold ScatterDims.start
  rw [dif_pos ha, siIdx_rows d huw hiv b i dd _ 1 (by simp [hsd])]

/-- Operand axis 2 is not named by the index vector: the start there is 0. -/
theorem start_2 (hsd : d.scatterDimsToOperandDims = [0, 1]) (idx : IVec ⟨3, ![64, 512, 2]⟩ 32)
    (j : Shape.Idx ⟨3, ![64, 512, 768]⟩) : d.start j idx (2 : Fin 3) = 0 := by
  have ha : (2 : Fin 3) ∉ d.scatterDimsToOperandDims := by rw [hsd]; decide
  unfold ScatterDims.start
  rw [dif_neg ha]

/-- Operand axis 0 is inserted: the window coordinate there is 0. -/
theorem window_0 (hiw : d.insertedWindowDims = [0, 1]) (j : Shape.Idx ⟨3, ![64, 512, 768]⟩) :
    d.window j (0 : Fin 3) = 0 := by
  have ha : (0 : Fin 3) ∉ d.sKept := by rw [sKept_eq d hiw]; decide
  unfold ScatterDims.window
  rw [dif_neg ha]

/-- Operand axis 1 is inserted: the window coordinate there is 0. -/
theorem window_1 (hiw : d.insertedWindowDims = [0, 1]) (j : Shape.Idx ⟨3, ![64, 512, 768]⟩) :
    d.window j (1 : Fin 3) = 0 := by
  have ha : (1 : Fin 3) ∉ d.sKept := by rw [sKept_eq d hiw]; decide
  unfold ScatterDims.window
  rw [dif_neg ha]

/-- Operand axis 2 is the one kept axis: the window coordinate there is the update's coordinate on its window axis 2. -/
theorem window_2 (huw : d.updateWindowDims = [2]) (hiw : d.insertedWindowDims = [0, 1]) (b : Fin 64) (i : Fin 512)
    (dd : Fin 768) : d.window (ix3 b i dd) (2 : Fin 3) = dd.val := by
  have hsk := sKept_eq d hiw
  have ha : (2 : Fin 3) ∈ d.sKept := by rw [hsk]; decide
  unfold ScatterDims.window
  rw [dif_pos ha]
  refine (coord_congr (ix3 b i dd) _ 2 ?_).trans rfl
  simp [huw, hsk]

end Sums

/-- The update `(b, i, dd)` lands on `(r, q, dd)` when its index pair reads, signed, the in-range `r` and `q`. -/
theorem resultIdx_rows (d : ScatterDims ⟨3, ![64, 513, 768]⟩ ⟨3, ![64, 512, 2]⟩ ⟨3, ![64, 512, 768]⟩)
    (huw : d.updateWindowDims = [2]) (hiw : d.insertedWindowDims = [0, 1]) (hsd : d.scatterDimsToOperandDims = [0, 1])
    (hiv : d.indexVectorDim = 2) (idx : IVec ⟨3, ![64, 512, 2]⟩ 32) (b : Fin 64) (i : Fin 512) (dd : Fin 768)
    (r : Fin 64) (q : Fin 513) (h0 : (idx (ix3 b i (0 : Fin 2))).toInt = (r.val : Int))
    (h1 : (idx (ix3 b i (1 : Fin 2))).toInt = (q.val : Int)) :
    d.resultIdx? (ix3 b i dd) idx = some (ix3 r q dd) := by
  have s0 : d.start (ix3 b i dd) idx (0 : Fin 3) + d.window (ix3 b i dd) (0 : Fin 3) = (r.val : Int) := by
    rw [start_0 d huw hsd hiv, window_0 d hiw, h0]; simp
  have s1 : d.start (ix3 b i dd) idx (1 : Fin 3) + d.window (ix3 b i dd) (1 : Fin 3) = (q.val : Int) := by
    rw [start_1 d huw hsd hiv, window_1 d hiw, h1]; simp
  have s2 : d.start (ix3 b i dd) idx (2 : Fin 3) + d.window (ix3 b i dd) (2 : Fin 3) = (dd.val : Int) := by
    rw [start_2 d hsd, window_2 d huw hiw]; simp
  have h : ∀ a, 0 ≤ d.start (ix3 b i dd) idx a + d.window (ix3 b i dd) a ∧
      d.start (ix3 b i dd) idx a + d.window (ix3 b i dd) a < (Shape.size ⟨3, ![64, 513, 768]⟩ a : Nat) := by
    intro a
    match a with
    | ⟨0, _⟩ => exact s0 ▸ ⟨Int.natCast_nonneg _, Int.ofNat_lt.2 r.isLt⟩
    | ⟨1, _⟩ => exact s1 ▸ ⟨Int.natCast_nonneg _, Int.ofNat_lt.2 q.isLt⟩
    | ⟨2, _⟩ => exact s2 ▸ ⟨Int.natCast_nonneg _, Int.ofNat_lt.2 dd.isLt⟩
  unfold ScatterDims.resultIdx?
  rw [dif_pos h]
  refine congrArg some (funext fun a => Fin.ext ?_)
  match a with
  | ⟨0, _⟩ => exact (congrArg Int.toNat s0).trans (Int.toNat_natCast _)
  | ⟨1, _⟩ => exact (congrArg Int.toNat s1).trans (Int.toNat_natCast _)
  | ⟨2, _⟩ => exact (congrArg Int.toNat s2).trans (Int.toNat_natCast _)

end Cert.ScatterRows

end
-- ==== Proof.RefValue.lean ====
/-
  The reference's result is the compacted array.

  At `(b, j, d)` with `j < 512`: the update `(b', i, d')` of the scatter lands on operand index
  `(b', row b' i, d')`, where `row` is the destination of position `i` (the dump row 512 for an invalid one). So it
  lands on `(b, j, d)` exactly when `b' = b`, `d' = d` and position `i` hits row `j`; at most one position does, and when
  none does the zero of the operand survives.
-/
import proofs.«167264_j41016937677038_1_alg».proof.Proof.RefRun
import proofs.«167264_j41016937677038_1_alg».proof.Proof.Cumsum
import proofs.«167264_j41016937677038_1_alg».proof.Proof.LibScatterSet
import proofs.«167264_j41016937677038_1_alg».proof.Proof.ScatterRows
import Idealize.ShloMosaic.Lib.ValueIdx
import Idealize.ShloMosaic.Lib.Pipeline.Value
import Idealize.ShloMosaic.Lib.ValueLayout
import Idealize.ShloMosaic.PureOps.Ideal.Laws

noncomputable section

namespace Cert.ReferenceIdeal.RefValue

open Cert.ReferenceIdeal Cert.ReferenceIdeal.Gen Idealize.ShloMosaic Idealize.ShloMosaic.ValueIdx Cert.Compact
open Cert.ReferenceIdeal.RefRun

/-! ## Words that are small natural numbers -/

/-- A word below `2 ^ 31` is not negative as a signed word: the wrap of negative indices leaves it alone. -/
theorem wrap_of_small (w c : BitVec 32) (h : w.toNat < 2 ^ 31) :
    Scalar.select (IntOp.cmpi .slt w 0#32) (IntOp.addi w c) w = w := by
  have hI : w.toInt = (w.toNat : Int) := BitVec.toInt_eq_toNat_of_lt (by omega)
  have hs : w.slt 0#32 = false := by
    rw [BitVec.slt_eq_decide, hI]
    simp
  simp [Scalar.select, IntOp.cmpi, hs]

/-- The word of a natural number below `2 ^ 31` reads, signed, that number. -/
theorem toInt_ofNat_small (n : Nat) (h : n < 2 ^ 31) : (BitVec.ofNat 32 n).toInt = (n : Int) := by
  have hn : (BitVec.ofNat 32 n).toNat = n := by
    rw [BitVec.toNat_ofNat]; exact Nat.mod_eq_of_lt (by omega)
  rw [BitVec.toInt_eq_toNat_of_lt (by rw [hn]; omega), hn]

/-! ## The two components of the index pairs -/

/-- The batch component at batch `b` is the word of `b`. -/
theorem batchIdx_apply (b : Fin 64) : batchIdx (ix2 b (0 : Fin 1)) = BitVec.ofNat 32 b.val := by
  have h0 : batchIota (ix2 b (0 : Fin 1)) = BitVec.ofNat 32 b.val := by
    unfold batchIota
    rw [broadcastInDim_apply _ _ _ _ (ix1 b) (fun a => by match a with | ⟨0, _⟩ => rfl)]
    rfl
  show Scalar.select (IntOp.cmpi .slt (batchIota (ix2 b (0 : Fin 1))) 0#32)
      (IntOp.addi (batchIota (ix2 b (0 : Fin 1))) 64#32) (batchIota (ix2 b (0 : Fin 1))) = _
  rw [h0]
  refine wrap_of_small _ _ ?_
  rw [BitVec.toNat_ofNat]
  have := b.isLt
  have : b.val % 2 ^ 32 = b.val := Nat.mod_eq_of_lt (by omega)
  omega

/-- The row component at position `i` of batch `b` is the destination word itself when that word is below `2 ^ 31`. -/
theorem rowIdx_apply_of_small (vid : IVec S64x512 32) (b : Fin 64) (i : Fin 512)
    (h : (dest 512#32 vid (ix2 b i)).toNat < 2 ^ 31) : rowIdx vid (ix2 b i) = dest 512#32 vid (ix2 b i) :=
  wrap_of_small _ 513#32 h

/-- The row number of a position: a row `q ≤ 512` that the row component reads, signed, and that is the output row
    `j` exactly when the position hits `j` (the dump row 512 is no output row, and an invalid position hits none). -/
theorem row_spec (vid : IVec S64x512 32) (b : Fin 64) (i : Fin 512) :
    ∃ q : Fin 513, (rowIdx vid (ix2 b i)).toInt = (q.val : Int) ∧ ∀ j : Fin 512, q.val = j.val ↔ Hit vid b j i := by
  rcases dest_cases 512#32 vid b i with ⟨hv, hd⟩ | ⟨j', hj', hd⟩
  · refine ⟨⟨512, by omega⟩, ?_, fun j => ⟨fun hq => ?_, fun hh => absurd hh.1 hv⟩⟩
    · rw [rowIdx_apply_of_small vid b i (by rw [hd]; decide), hd]
      decide
    · have := j.isLt
      exact absurd hq (by show (512 : Nat) ≠ j.val; omega)
  · have hj'lt := j'.isLt
    have hsm : (dest 512#32 vid (ix2 b i)).toNat < 2 ^ 31 := by
      rw [hd, BitVec.toNat_ofNat]
      have : j'.val % 2 ^ 32 = j'.val := Nat.mod_eq_of_lt (by omega)
      omega
    refine ⟨⟨j'.val, by omega⟩, ?_, fun j => ⟨fun hq => ?_, fun hh => ?_⟩⟩
    · rw [rowIdx_apply_of_small vid b i hsm, hd]
      exact toInt_ofNat_small _ (by omega)
    · have : j' = j := Fin.ext hq
      exact this ▸ hj'
    · exact congrArg Fin.val (hit_row_unique vid b j' j i hj' hh)

/-- The index pair's first component at `(b, i)` is the batch component of batch `b`. -/
theorem refIdx_zero (vid : IVec S64x512 32) (b : Fin 64) (i : Fin 512) :
    refIdx vid (ix3 b i (0 : Fin 2)) = batchIdx (ix2 b (0 : Fin 1)) := by
  unfold refIdx
  rw [concatenate_pair_apply_left (t := S64x512x2) (s₁ := S64x512x1) (s₂ := S64x512x1) 2 _ _ _ (ix3 b i (0 : Fin 2)) rfl
    (ix3 b i (0 : Fin 1)) (fun a => by match a with | ⟨0, _⟩ => rfl | ⟨1, _⟩ => rfl | ⟨2, _⟩ => rfl)]
  rw [broadcastInDim_apply _ _ _ _ (ix2 b i) (fun a => by match a with | ⟨0, _⟩ => rfl | ⟨1, _⟩ => rfl)]
  rw [broadcastInDim_apply _ _ _ _ (ix2 b (0 : Fin 1)) (fun a => by match a with | ⟨0, _⟩ => rfl | ⟨1, _⟩ => rfl)]

/-- The index pair's second component at `(b, i)` is the row component of position `i` of batch `b`. -/
theorem refIdx_one (vid : IVec S64x512 32) (b : Fin 64) (i : Fin 512) :
    refIdx vid (ix3 b i (1 : Fin 2)) = rowIdx vid (ix2 b i) := by
  unfold refIdx
  rw [concatenate_pair_apply_right (t := S64x512x2) (s₁ := S64x512x1) (s₂ := S64x512x1) 2 _ _ _ (ix3 b i (1 : Fin 2)) rfl rfl
    (ix3 b i (0 : Fin 1))
    (fun a ha => by
      match a with
      | ⟨0, _⟩ => rfl
      | ⟨1, _⟩ => rfl
      | ⟨2, _⟩ => exact absurd rfl ha)
    rfl]
  rw [broadcastInDim_apply _ _ _ _ (ix2 b i) (fun a => by match a with | ⟨0, _⟩ => rfl | ⟨1, _⟩ => rfl)]

/-! ## Where an update lands -/

/-- The update `(b, i, d)` lands on `(b, q, d)`, `q` the row the row component reads. -/
theorem lands (vid : IVec S64x512 32) (b : Fin 64) (i : Fin 512) (d : Fin 768) (q : Fin 513)
    (hq : (rowIdx vid (ix2 b i)).toInt = (q.val : Int)) :
    scatter_S64x513x768_S64x512x2_S64x512x768_2_01_01_2.resultIdx? (ix3 b i d) (refIdx vid) = some (ix3 b q d) := by
  refine Cert.ScatterRows.resultIdx_rows _ rfl rfl rfl rfl (refIdx vid) b i d b q ?_ ?_
  · rw [refIdx_zero, batchIdx_apply]
    have := b.isLt
    exact toInt_ofNat_small _ (by omega)
  · rw [refIdx_one]
    exact hq

/-- The update `(b', i, d')` lands on `(b, j, d)`, `j` an output row, exactly when it is of the same batch and column and
    position `i` hits row `j`. -/
theorem lands_iff (vid : IVec S64x512 32) (b b' : Fin 64) (i j : Fin 512) (d d' : Fin 768) (hj : j.val < 513) :
    scatter_S64x513x768_S64x512x2_S64x512x768_2_01_01_2.resultIdx? (ix3 b' i d') (refIdx vid)
        = some (ix3 b (⟨j.val, hj⟩ : Fin 513) d)
      ↔ b' = b ∧ d' = d ∧ Hit vid b j i := by
  obtain ⟨q, hq, hqj⟩ := row_spec vid b' i
  rw [lands vid b' i d' q hq]
  constructor
  · intro h
    have h := Option.some.inj h
    have h0 : b' = b := congrFun h (0 : Fin 3)
    have h1 : q = (⟨j.val, hj⟩ : Fin 513) := congrFun h (1 : Fin 3)
    have h2 : d' = d := congrFun h (2 : Fin 3)
    subst h0
    exact ⟨rfl, h2, (hqj j).1 (congrArg Fin.val h1)⟩
  · rintro ⟨rfl, rfl, hh⟩
    have h1 : q = (⟨j.val, hj⟩ : Fin 513) := Fin.ext ((hqj j).2 hh)
    rw [h1]

/-! ## The result -/

/-- The reference's result term, at the ideal values, is the compacted array. -/
theorem refOut_eq (x : FVec Ideal S64x512x768 .f32) (vid : IVec S64x512 32) :
    refOut (F := Ideal) x vid = G x vid := by
  funext p
  obtain ⟨b, j, d, rfl⟩ : ∃ (b : Fin 64) (j : Fin 512) (d : Fin 768), p = ix3 b j d := ⟨p 0, p 1, p 2, eq_ix3 p⟩
  have hj : j.val < 513 := by have := j.isLt; omega
  -- the slice keeps the rows below 512 where they are
  have hslice : refOut (F := Ideal) x vid (ix3 b j d) = scattered x vid (ix3 b (⟨j.val, hj⟩ : Fin 513) d) := by
    unfold refOut
    exact extractStridedSlice_apply _ _ _ _ _ (fun a => by
      match a with
      | ⟨0, _⟩ => exact (Nat.zero_add _).symm
      | ⟨1, _⟩ => exact (Nat.zero_add _).symm
      | ⟨2, _⟩ => exact (Nat.zero_add _).symm)
  rw [hslice, G_ix3]
  unfold scattered Gat
  by_cases h : ∃ i : Fin 512, Hit vid b j i
  · -- the one position that hits row `j` writes its entry there
    rw [dif_pos h]
    refine Cert.LibScatterSet.scatter_set_apply_of_hit _ _ _ _ _ (ix3 b (Classical.choose h) d)
      ((lands_iff vid b b (Classical.choose h) j d d hj).2 ⟨rfl, rfl, Classical.choose_spec h⟩) (fun p' hp' => ?_)
    obtain ⟨b', i', d', rfl⟩ : ∃ (b' : Fin 64) (i' : Fin 512) (d' : Fin 768), p' = ix3 b' i' d' :=
      ⟨p' 0, p' 1, p' 2, eq_ix3 p'⟩
    obtain ⟨rfl, rfl, hh⟩ := (lands_iff vid b b' i' j d d' hj).1 hp'
    rw [hit_unique vid b' j i' (Classical.choose h) hh (Classical.choose_spec h)]
  · -- no position hits row `j`: the operand's zero is kept
    rw [dif_neg h]
    rw [Cert.LibScatterSet.scatter_set_apply_of_miss _ _ _ _ _ (fun p' hp' => by
      obtain ⟨b', i', d', rfl⟩ : ∃ (b' : Fin 64) (i' : Fin 512) (d' : Fin 768), p' = ix3 b' i' d' :=
        ⟨p' 0, p' 1, p' 2, eq_ix3 p'⟩
      exact h ⟨i', ((lands_iff vid b b' i' j d d' hj).1 hp').2.2⟩)]
    exact Ideal.ofBits_zero_f32

end Cert.ReferenceIdeal.RefValue

end
-- ==== Proof.lean ====
/-
  Token compaction: a one-hot matrix product against a scatter.

  For each batch row the kernel builds the 512 × 512 matrix whose entry (j, i) is one when position `i` is sent to output
  row `j` and zero otherwise, and multiplies it into the row's block of `x`; the reference scatters the rows of `x` to
  their destinations in a zero array with one extra dump row for the invalid positions, and drops that row. Both send a
  valid position to (the number of valid positions up to and including it) minus one, computed by the same running sum.
  Since that count is strictly increasing along the valid positions, every output row is the destination of at most
  one position: the matrix product's sum has at most one non-zero term and the scatter at most one write per kept row,
  and both leave `x` at that position, or zero when the row is no destination. On the extended reals zero times
  anything is zero, so the equality holds for all inputs and the finiteness precondition is not used.

  The kernel's frames are the generated ones; its value is the generated blockwise run read block by block
  (Proof/KernelValue.lean over Proof/KernelPayload.lean), joined to the specification in Proof/Bridge.lean; the
  reference's run and value are Proof/RefRun.lean and Proof/RefValue.lean; the counting facts are Proof/Cumsum.lean.
-/
import proofs.«167264_j41016937677038_1_alg».proof.Defs
import proofs.«167264_j41016937677038_1_alg».proof.Proof.Gen.Kernel
import proofs.«167264_j41016937677038_1_alg».proof.Proof.Gen.Kernel.Skeleton
import proofs.«167264_j41016937677038_1_alg».proof.Proof.Gen.Kernel.Launch
import proofs.«167264_j41016937677038_1_alg».proof.Proof.Gen.Kernel.Points
import proofs.«167264_j41016937677038_1_alg».proof.Proof.Gen.Kernel.Frame
import proofs.«167264_j41016937677038_1_alg».proof.Proof.Gen.KernelIdeal
import proofs.«167264_j41016937677038_1_alg».proof.Proof.Gen.KernelIdeal.Skeleton
import proofs.«167264_j41016937677038_1_alg».proof.Proof.Gen.KernelIdeal.Launch
import proofs.«167264_j41016937677038_1_alg».proof.Proof.Gen.KernelIdeal.Points
import proofs.«167264_j41016937677038_1_alg».proof.Proof.Gen.KernelIdeal.Frame
import proofs.«167264_j41016937677038_1_alg».proof.Proof.Gen.KernelIdeal.Value
import proofs.«167264_j41016937677038_1_alg».proof.Proof.Gen.ReferenceIdeal
import proofs.«167264_j41016937677038_1_alg».proof.Proof.Gen.Pre_finite_inputs
import proofs.«167264_j41016937677038_1_alg».proof.Proof.KernelValue
import proofs.«167264_j41016937677038_1_alg».proof.Proof.Bridge
import proofs.«167264_j41016937677038_1_alg».proof.Proof.RefRun
import proofs.«167264_j41016937677038_1_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.RefRun.run (F := Ideal) m ρ)

/-- The idealization rewrote nothing. -/
theorem preserves : Cert.preserves_Kernel_KernelIdeal := trivial

/-- Both programs end with the compacted array of the arguments: the kernel's masked sum is it (`Gk_eq_G`), and so is
    the reference's scatter (`refOut_eq`). -/
theorem algebraic : Cert.algebraic_KernelIdeal_ReferenceIdeal := by
  intro m ρ m' ρ' _ hagree
  refine ⟨fun c => Cert.Compact.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · exact (θ_run Cert.KernelIdeal.defs _ _).mono
      (fun _ h c => ⟨(h c).1.trans (Cert.Compact.Gk_eq_G _ _), (h c).2⟩) (Cert.KernelIdeal.KValue.run m ρ)
  · refine (θ_run Cert.ReferenceIdeal.defs _ _).mono (fun _ h c => ⟨(h c).1.trans ?_, (h c).2⟩)
      (Cert.ReferenceIdeal.RefRun.run (F := Ideal) m' ρ')
    rw [(hagree c).1, (hagree c).2]
    exact Cert.ReferenceIdeal.RefValue.refOut_eq _ _

theorem claim : Cert.Claim := ⟨Cert.Kernel.Gen.facts, Cert.KernelIdeal.Gen.facts, Cert.ReferenceIdeal.Gen.facts,
  Cert.Pre_finite_inputs.Gen.facts, frame_k, frame_ki, frame_ri, preserves, algebraic⟩

end Cert.Proof

end
